-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x3072 : Shape := ⟨3, ![4, 2048, 3072]⟩
abbrev S16384x3072 : Shape := ⟨2, ![16384, 3072]⟩
abbrev S16384 : Shape := ⟨1, ![16384]⟩
abbrev S3072x8192 : Shape := ⟨2, ![3072, 8192]⟩
abbrev S3072 : Shape := ⟨1, ![3072]⟩
abbrev S_ : Shape := ⟨0, ![]⟩

class Facts : Prop where
  bcast_S_S4x2048x3072 : S_.BroadcastsInDim S4x2048x3072 (![] : Fin 0 → Fin S4x2048x3072.rank)
  reducesTo_S4x2048x3072_S_d0_1_2 : S4x2048x3072.ReducesTo [0, 1, 2] S_
  h_S_ : 0 < S_.numel
  bcast_S_S16384 : S_.BroadcastsInDim S16384 (![] : Fin 0 → Fin S16384.rank)
  reducesTo_S16384_S_d0 : S16384.ReducesTo [0] S_
  bcast_S_S3072 : S_.BroadcastsInDim S3072 (![] : Fin 0 → Fin S3072.rank)
  reducesTo_S3072_S_d0 : S3072.ReducesTo [0] S_

variable [Facts]

def fn {F : FTy → Type} [FloatOps F] (main_arg0 : FVec F S4x2048x3072 .f32) (main_arg1 : IVec S16384x3072 32) (main_arg2 : FVec F S16384 .f32) (main_arg3 : IVec S3072x8192 32) (main_arg4 : FVec F S3072 .f32) : IVec S_ 1 :=
  let main_v0 : FVec F S4x2048x3072 .f32 := Host.absf main_arg0
  let main_cst : FVec F S_ .f32 := constant S_ .f32 0x7F800000#32
  let main_v1 : FVec F S4x2048x3072 .f32 := broadcastInDim S4x2048x3072 ![] bcast_S_S4x2048x3072 main_cst
  let main_v2 : IVec S4x2048x3072 1 := cmpf .olt main_v0 main_v1
  let main_c : IVec S_ 1 := constantI S_ 1 1#1
  let main_v3 : IVec S_ 1 := (fun x v => Host.reduce IntOp.andi x v reducesTo_S4x2048x3072_S_d0_1_2 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S3072 .f32 := Host.absf main_arg4
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  main_v13
-- ==== Kernel.lean ====
abbrev S4x2048x3072 : Shape := ⟨3, ![4, 2048, 3072]⟩
abbrev S16384x3072 : Shape := ⟨2, ![16384, 3072]⟩
abbrev S16384 : Shape := ⟨1, ![16384]⟩
abbrev S3072x8192 : Shape := ⟨2, ![3072, 8192]⟩
abbrev S3072 : Shape := ⟨1, ![3072]⟩
abbrev S8192x3072 : Shape := ⟨2, ![8192, 3072]⟩
abbrev S512x3072 : Shape := ⟨2, ![512, 3072]⟩
abbrev S128x3072 : Shape := ⟨2, ![128, 3072]⟩
abbrev S128 : Shape := ⟨1, ![128]⟩
abbrev S3072x128 : Shape := ⟨2, ![3072, 128]⟩
abbrev S512x128 : Shape := ⟨2, ![512, 128]⟩
abbrev S1x128 : Shape := ⟨2, ![1, 128]⟩
abbrev S1x3072 : Shape := ⟨2, ![1, 3072]⟩

abbrev nBuf : Space → Nat
  | .hbm => 8
  | .vmem => 14
  | .smem => 0
  | _ => 0

abbrev bufTy : (tb : Table) → Fin (tcTables nBuf tb) → BufTy
  | .hbm, ⟨0, _⟩ => ⟨S4x2048x3072, .f32⟩
  | .hbm, ⟨1, _⟩ => ⟨S16384x3072, .i32⟩
  | .hbm, ⟨2, _⟩ => ⟨S16384, .f32⟩
  | .hbm, ⟨3, _⟩ => ⟨S3072x8192, .i32⟩
  | .hbm, ⟨4, _⟩ => ⟨S3072, .f32⟩
  | .hbm, ⟨5, _⟩ => ⟨S8192x3072, .f32⟩
  | .hbm, ⟨6, _⟩ => ⟨S8192x3072, .f32⟩
  | .hbm, ⟨7, _⟩ => ⟨S4x2048x3072, .f32⟩
  | .local _ .vmem, ⟨0, _⟩ => ⟨S512x3072, .f32⟩
  | .local _ .vmem, ⟨1, _⟩ => ⟨S128x3072, .i32⟩
  | .local _ .vmem, ⟨2, _⟩ => ⟨S128x3072, .i32⟩
  | .local _ .vmem, ⟨3, _⟩ => ⟨S128x3072, .i32⟩
  | .local _ .vmem, ⟨4, _⟩ => ⟨S128x3072, .i32⟩
  | .local _ .vmem, ⟨5, _⟩ => ⟨S128, .f32⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S3072x128, .i32⟩
  | .local _ .vmem, ⟨10, _⟩ => ⟨S3072x128, .i32⟩
  | .local _ .vmem, ⟨11, _⟩ => ⟨S3072, .f32⟩
  | .local _ .vmem, ⟨12, _⟩ => ⟨S512x3072, .f32⟩
  | .local _ .vmem, ⟨13, _⟩ => ⟨S512x3072, .f32⟩
  | _, _ => ⟨S4x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨2, ![16, 64], ![false, false]⟩

def k0_cond2 (i : grid0.Coords) : BitVec 1 :=
  let arg1 : BitVec 32 := BitVec.ofNat 32 (i 1).val
  let c63_i32 : BitVec 32 := 63#32
  let v35 : BitVec 1 := Scalar.cmpi .eq arg1 c63_i32
  let v36 : BitVec 32 := Scalar.extui v35
  let c0_i32_16 : BitVec 32 := 0#32
  let v37 : BitVec 1 := Scalar.cmpi .ne v36 c0_i32_16
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi arg1 c64_i32
  let c0_i32 : BitVec 32 := 0#32
  let c0_i32_0 : BitVec 32 := 0#32
  ![v0.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 1 → Nat :=
  let arg0 : BitVec 32 := BitVec.ofNat 32 (i 0).val
  let arg1 : BitVec 32 := BitVec.ofNat 32 (i 1).val
  let c64_i32 : BitVec 32 := 64#32
  let v0 : BitVec 32 := Scalar.addi arg1 c64_i32
  let c0_i32 : BitVec 32 := 0#32
  ![v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S128x3072 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x3072 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3072x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

class Facts₀ : Prop where
  shapeCasts_S4x2048x3072_S8192x3072 : S4x2048x3072.ShapeCasts S8192x3072
  inb_S512x3072_S512x3072_0_0 : ∀ a, (![0, 0] : Fin 2 → Nat) a + S512x3072.size a ≤ S512x3072.size a
  h_S512x3072 : 0 < S512x3072.numel
  shapeCasts_S512x3072_S512x3072 : S512x3072.ShapeCasts S512x3072
  bitsLt_bf16_f32 : FTy.bits .bf16 < FTy.bits .f32
  inb_S128x3072_S128x3072_0_0 : ∀ a, (![0, 0] : Fin 2 → Nat) a + S128x3072.size a ≤ S128x3072.size a
  h_S128x3072 : 0 < S128x3072.numel
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S3072x128_S3072x128_0_0 : ∀ a, (![0, 0] : Fin 2 → Nat) a + S3072x128.size a ≤ S3072x128.size a
  h_S3072x128 : 0 < S3072x128.numel
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S512x3072 : S1x3072.Broadcasts S512x3072
  shapeCasts_S8192x3072_S4x2048x3072 : S8192x3072.ShapeCasts S4x2048x3072
  dot_S512x3072_S128x3072_S512x128_1_1_0_0_n_n_wf : DotDims.WF S512x3072 S128x3072 S512x128 [1] [1] [0] [0] [] []
  dot_S512x128_S3072x128_S512x3072_1_1_0_0_n_n_wf : DotDims.WF S512x128 S3072x128 S512x3072 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x3072.size a ≤ S8192x3072.size a
  hwx0_0 : ∀ i : grid0.Coords, EltTy.bits .f32 = 32 ∨ (Rect.block (s := S8192x3072) S512x3072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x3072.size a ≤ S16384x3072.size a
  hwx0_1 : ∀ i : grid0.Coords, EltTy.bits .i32 = 32 ∨ (Rect.block (s := S16384x3072) S128x3072.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x3072.size a ≤ S16384x3072.size a
  hwx0_2 : ∀ i : grid0.Coords, EltTy.bits .i32 = 32 ∨ (Rect.block (s := S16384x3072) S128x3072.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S16384.size a
  hwx0_3 : ∀ i : grid0.Coords, EltTy.bits .f32 = 32 ∨ (Rect.block (s := S16384) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S16384.size a
  hwx0_4 : ∀ i : grid0.Coords, EltTy.bits .f32 = 32 ∨ (Rect.block (s := S16384) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3072x128.size a ≤ S3072x8192.size a
  hwx0_5 : ∀ i : grid0.Coords, EltTy.bits .i32 = 32 ∨ (Rect.block (s := S3072x8192) S3072x128.size (cc0_transform_5 i) (hinb0_5 i)).WholeWords (EltTy.packing .i32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3072.size a ≤ S3072.size a
  hwx0_6 : ∀ i : grid0.Coords, EltTy.bits .f32 = 32 ∨ (Rect.block (s := S3072) S3072.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x3072.size a ≤ S8192x3072.size a
  hwx0_7 : ∀ i : grid0.Coords, EltTy.bits .f32 = 32 ∨ (Rect.block (s := S8192x3072) S512x3072.size (cc0_transform_7 i) (hinb0_7 i)).WholeWords (EltTy.packing .f32)

variable [Facts₀]

def dot_S512x3072_S128x3072_S512x128_1_1_0_0_n_n : DotDims S512x3072 S128x3072 S512x128 where
  lhsContracting := [1]
  rhsContracting := [1]
  lhsNonContracting := [0]
  rhsNonContracting := [0]
  lhsBatch := []
  rhsBatch := []
  wf := dot_S512x3072_S128x3072_S512x128_1_1_0_0_n_n_wf
def dot_S512x128_S3072x128_S512x3072_1_1_0_0_n_n : DotDims S512x128 S3072x128 S512x3072 where
  lhsContracting := [1]
  rhsContracting := [1]
  lhsNonContracting := [0]
  rhsNonContracting := [0]
  lhsBatch := []
  rhsBatch := []
  wf := dot_S512x128_S3072x128_S512x3072_1_1_0_0_n_n_wf

abbrev win0_0 : Pipeline.Window sig grid0 :=
  Pipeline.Window.ofSpec (Memref.whole main_v0) S512x3072.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x3072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x3072.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S3072x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S3072.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S512x3072.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4x2048x3072 : Shape := ⟨3, ![4, 2048, 3072]⟩
abbrev S16384x3072 : Shape := ⟨2, ![16384, 3072]⟩
abbrev S16384 : Shape := ⟨1, ![16384]⟩
abbrev S3072x8192 : Shape := ⟨2, ![3072, 8192]⟩
abbrev S3072 : Shape := ⟨1, ![3072]⟩
abbrev S4x2048x16384 : Shape := ⟨3, ![4, 2048, 16384]⟩
abbrev S1x1x16384 : Shape := ⟨3, ![1, 1, 16384]⟩
abbrev S4x2048x8192 : Shape := ⟨3, ![4, 2048, 8192]⟩
abbrev S_ : Shape := ⟨0, ![]⟩
abbrev S1x1x3072 : Shape := ⟨3, ![1, 1, 3072]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x3072, .f32⟩
  | .hbm, ⟨1, _⟩ => ⟨S16384x3072, .i32⟩
  | .hbm, ⟨2, _⟩ => ⟨S16384, .f32⟩
  | .hbm, ⟨3, _⟩ => ⟨S3072x8192, .i32⟩
  | .hbm, ⟨4, _⟩ => ⟨S3072, .f32⟩
  | .hbm, ⟨5, _⟩ => ⟨S16384x3072, .f32⟩
  | .hbm, ⟨6, _⟩ => ⟨S4x2048x16384, .f32⟩
  | .hbm, ⟨7, _⟩ => ⟨S1x1x16384, .f32⟩
  | .hbm, ⟨8, _⟩ => ⟨S4x2048x16384, .f32⟩
  | .hbm, ⟨9, _⟩ => ⟨S4x2048x16384, .f32⟩
  | .hbm, ⟨10, _⟩ => ⟨S4x2048x8192, .f32⟩
  | .hbm, ⟨11, _⟩ => ⟨S4x2048x8192, .f32⟩
  | .hbm, ⟨12, _⟩ => ⟨S4x2048x8192, .f32⟩
  | .hbm, ⟨13, _⟩ => ⟨S4x2048x8192, .f32⟩
  | .hbm, ⟨14, _⟩ => ⟨S_, .f32⟩
  | .hbm, ⟨15, _⟩ => ⟨S4x2048x8192, .f32⟩
  | .hbm, ⟨16, _⟩ => ⟨S4x2048x8192, .f32⟩
  | .hbm, ⟨17, _⟩ => ⟨S_, .f32⟩
  | .hbm, ⟨18, _⟩ => ⟨S4x2048x8192, .f32⟩
  | .hbm, ⟨19, _⟩ => ⟨S4x2048x8192, .f32⟩
  | .hbm, ⟨20, _⟩ => ⟨S4x2048x8192, .f32⟩
  | .hbm, ⟨21, _⟩ => ⟨S4x2048x8192, .f32⟩
  | .hbm, ⟨22, _⟩ => ⟨S3072x8192, .f32⟩
  | .hbm, ⟨23, _⟩ => ⟨S4x2048x3072, .f32⟩
  | .hbm, ⟨24, _⟩ => ⟨S1x1x3072, .f32⟩
  | .hbm, ⟨25, _⟩ => ⟨S4x2048x3072, .f32⟩
  | .hbm, ⟨26, _⟩ => ⟨S4x2048x3072, .f32⟩
  | _, _ => ⟨S4x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩

abbrev nD : Nat := 1
abbrev τ : Topo := Topo.v7x

variable {F : FTy → Type} [FloatOps F]

class Facts₀ : Prop where
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  slices_S4x2048x16384_S4x2048x8192_0_0_0 : S4x2048x16384.Slices ![0, 0, 0] S4x2048x8192
  slices_S4x2048x16384_S4x2048x8192_0_0_8192 : S4x2048x16384.Slices ![0, 0, 8192] S4x2048x8192
  bcast_S_S4x2048x8192 : S_.BroadcastsInDim S4x2048x8192 (![] : Fin 0 → Fin S4x2048x8192.rank)
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  dot_S4x2048x3072_S16384x3072_S4x2048x16384_2_1_01_0_n_n_wf : DotDims.WF S4x2048x3072 S16384x3072 S4x2048x16384 [2] [1] [0, 1] [0] [] []
  dot_S4x2048x8192_S3072x8192_S4x2048x3072_2_1_01_0_n_n_wf : DotDims.WF S4x2048x8192 S3072x8192 S4x2048x3072 [2] [1] [0, 1] [0] [] []

variable [Facts₀]

def dot_S4x2048x3072_S16384x3072_S4x2048x16384_2_1_01_0_n_n : DotDims S4x2048x3072 S16384x3072 S4x2048x16384 where
  lhsContracting := [2]
  rhsContracting := [1]
  lhsNonContracting := [0, 1]
  rhsNonContracting := [0]
  lhsBatch := []
  rhsBatch := []
  wf := dot_S4x2048x3072_S16384x3072_S4x2048x16384_2_1_01_0_n_n_wf
def dot_S4x2048x8192_S3072x8192_S4x2048x3072_2_1_01_0_n_n : DotDims S4x2048x8192 S3072x8192 S4x2048x3072 where
  lhsContracting := [2]
  rhsContracting := [1]
  lhsNonContracting := [0, 1]
  rhsNonContracting := [0]
  lhsBatch := []
  rhsBatch := []
  wf := dot_S4x2048x8192_S3072x8192_S4x2048x3072_2_1_01_0_n_n_wf

class Facts : Prop extends Facts₀ where

variable [Facts]
-- ==== Proof.CommonK.lean ====
/-
  The fused gated projection's pipeline, point by point: what each staging buffer and the accumulator hold.

  The grid is 16 row tiles by 64 chunks of the hidden axis, point t = 64·i + k. Every input window's buffer holds
  its block of the array it stages (two windows stage two different row ranges of ONE weight array, and two more
  two ranges of ONE scale vector). The accumulator, a scratch kept between points, holds after point t the
  body's update applied to the zero block at k = 0 and to what the point before left otherwise; at k = 63 the
  output buffer receives the accumulator times the broadcast scale row, and is written back.
-/
import proofs.«124556_j48241072668862_1_alg».proof.Proof.Gen.Kernel.Launch
import proofs.«124556_j48241072668862_1_alg».proof.Proof.Gen.Kernel.Skeleton
import proofs.«124556_j48241072668862_1_alg».proof.Proof.Gen.Kernel.Points
import Idealize.ShloMosaic.Lib.Pipeline.FrameBody
import Idealize.ShloMosaic.Lib.Pipeline.Regions
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s buffers at launch, as a valuation; -/
abbrev V₀ (c : Dev nD) : Valuation τ sig (Elt F) := fun b => m (c, b)
/-- and when the region is entered: the one reshape before it has run. -/
abbrev V0 (c : Dev nD) : Valuation τ sig (Elt F) := StableHlo.after hostOps0 (V₀ m c)
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two conditions of the body, over the grid -/

/-- "this is the first chunk" (k = 0), as the body computes it; -/
abbrev cond0 (i : grid0.Coords) : Prop := (Scalar.cmpi .ne (Scalar.extui (Scalar.cmpi .eq (BitVec.ofNat 32 (i 1).val) 0#32)) 0#32) = 1#1
/-- it holds at the points ≡ 0 (mod 64). -/
theorem hcond0 : ∀ t : Fin cfg0.N, cond0 (grid0.coords t) ↔ t.val % 64 = 0 :=
  (by decide +kernel : ∀ t : Fin grid0.N, cond0 (grid0.coords t) ↔ t.val % 64 = 0)
/-- "this is the last chunk" (k = 63); -/
abbrev cond2 (i : grid0.Coords) : Prop := k0_cond2 i = 1#1
/-- it holds at the points ≡ 63 (mod 64). -/
theorem hcond2 : ∀ t : Fin cfg0.N, cond2 (grid0.coords t) ↔ t.val % 64 = 63 :=
  (by decide +kernel : ∀ t : Fin grid0.N, cond2 (grid0.coords t) ↔ t.val % 64 = 63)

/-- Away from the last chunk the output window is idle and not written back; at it, live. -/
theorem idleAt7 : ∀ t : Fin cfg0.N, ¬cond2 (grid0.coords t) → cfg0.idle 7 (grid0.coords t) = true := by decide +kernel
theorem noFlush7 : ∀ t : Fin cfg0.N, ¬cond2 (grid0.coords t) → (cfg0.win 7).flush t = false := by decide +kernel
theorem liveAt7 : ∀ t : Fin cfg0.N, cond2 (grid0.coords t) → cfg0.idle 7 (grid0.coords t) = false := by decide +kernel

/-! ## The accumulator and the output block, point by point -/

/-- The scratch accumulator, as a memref. -/
abbrev scM : Memref sig .tc .vmem S512x3072 .f32 := Memref.whole cc0_scratch0

/-- What the accumulator holds after the body at position `n`: the update of the zero block at the first chunk of
    a row tile, of what the point before left otherwise. -/
def accAt (c : Dev nD) : (n : ℕ) → n < cfg0.N → Vec F S512x3072 .f32
  | 0, hn => k0_pay3 (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (k0_pay2 (F := F))
  | n + 1, hn => k0_pay3 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
      (if (n + 1) % 64 = 0 then k0_pay2 (F := F) else accAt c n (Nat.lt_of_succ_lt hn))

/-- At the first chunk of a row tile: the update of the zero block. -/
theorem accAt_first (c : Dev nD) (t : Fin cfg0.N) (h0 : t.val % 64 = 0) :
    accAt m c t.val t.isLt = k0_pay3 (iblk m c 0 t) (iblk m c 1 t) (iblk m c 2 t) (iblk m c 3 t) (iblk m c 4 t) (iblk m c 5 t) (k0_pay2 (F := F)) := by
  obtain ⟨n, hn⟩ := t
  cases n with
  | zero => rfl
  | succ n => exact congrArg _ (if_pos h0)

/-- At a later chunk: the update of what the point before left. -/
theorem accAt_later (c : Dev nD) (t : Fin cfg0.N) (h0 : ¬t.val % 64 = 0) :
    accAt m c t.val t.isLt = k0_pay3 (iblk m c 0 t) (iblk m c 1 t) (iblk m c 2 t) (iblk m c 3 t) (iblk m c 4 t) (iblk m c 5 t)
      (accAt m c (t.val - 1) (Nat.lt_of_le_of_lt (Nat.sub_le _ _) t.isLt)) := by
  obtain ⟨n, hn⟩ := t
  cases n with
  | zero => exact absurd (Nat.zero_mod _) h0
  | succ n => exact congrArg _ (if_neg h0)

/-- The region invariant before position `n`: before the first point the scratch at anything; afterwards at what
    the point before left in it. -/
def PhiS (c : Dev nD) : (n : ℕ) → n ≤ cfg0.N → sProp 𝕄
  | 0, _ => iprop(∃ d, owns (c : Thread nD τ) scM fullShare d)
  | n + 1, hn => owns (c : Thread nD τ) scM fullShare (accAt m c n hn)

theorem PhiS_zero (c : Dev nD) (n : ℕ) (h : n ≤ cfg0.N) (hz : n = 0) :
    PhiS m c n h = iprop(∃ d, owns (c : Thread nD τ) scM fullShare d) := by subst hz; rfl
theorem PhiS_succ (c : Dev nD) (n : ℕ) (hn : n < cfg0.N) :
    PhiS m c (n + 1) hn = owns (c : Thread nD τ) scM fullShare (accAt m c n hn) := rfl
theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The pipeline's proof data -/

/-- The proof data on core `c`: the arrays as the region finds them; after the body each input's buffer at its
    block and the output's at the scaled accumulator; the invariant the accumulator's contents; nothing owed; an
    array staged by two windows held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay1 (accAt m c t.val t.isLt) (iblk m c 6 t)
  Φ t := PhiS m c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) :
    (dats m 0 c).after 7 t = k0_pay1 (accAt m c t.val t.isLt) (iblk m c 6 t) := by dsimp only [dats]

/-- Each input's current staging buffer holds its block at every point, fetched there or not: an input is never
    idle, its blocks are uncut, and the body leaves it in place. -/
theorem before_in0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before_in1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before_in2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before_in3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before_in4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before_in5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before_in6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)

end Cert.Kernel.Hand

end
-- ==== Proof.BodyRunK.lean ====
/-
  One run of the fused body on whole staging buffers, in each of its three control cases.

  The body loads the x block, the two weight chunks with their scales and the down chunk, and stores into the
  accumulator the update  acc + hidden · dwᵀ  of what the accumulator held; at the first chunk of a row tile it
  first stores the zero block, so the update it then stores is that of the zero block; at the last chunk it also
  stores into the output buffer the updated accumulator times the scale row laid over the rows. Every load and
  store is of a whole buffer, so each buffer ends at the last block stored into it, and an input buffer as it was.
-/
import proofs.«124556_j48241072668862_1_alg».proof.Proof.CommonK
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer rectangles -/

/-- The zero offsets of a whole-buffer rectangle, rank 2 and rank 1. -/
theorem hz2 : (![0, 0] : Fin 2 → Nat) = fun _ => 0 := funext fun a => by fin_cases a <;> rfl
theorem hz1 : (![0] : Fin 1 → Nat) = fun _ => 0 := funext fun a => by fin_cases a <;> rfl

/-- A whole buffer, after a last store of the whole block, reads that block, whatever was stored before. -/
theorem read_writes_whole_last {S : Shape} {e : EltTy} (v : View sig .tc .vmem S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hz inb y⟩),
    View.canon_cons_unit_zero hz inb]

/-! ## The three control cases -/

set_option maxHeartbeats 1000000 in
/-- First chunk of a row tile (k = 0, not the last): the accumulator, at anything, ends at the update of the zero block; the output buffer is untouched. -/
theorem kernelRun_A (c : Dev nD) (i : grid0.Coords) (arg2 : Memref sig .tc .vmem S512x3072 .f32) (harg2 : arg2.IsWhole) (arg3 : Memref sig .tc .vmem S128x3072 .i32) (harg3 : arg3.IsWhole) (arg4 : Memref sig .tc .vmem S128x3072 .i32) (harg4 : arg4.IsWhole) (arg5 : Memref sig .tc .vmem S128 .f32) (harg5 : arg5.IsWhole) (arg6 : Memref sig .tc .vmem S128 .f32) (harg6 : arg6.IsWhole) (arg7 : Memref sig .tc .vmem S3072x128 .i32) (harg7 : arg7.IsWhole) (arg8 : Memref sig .tc .vmem S3072 .f32) (harg8 : arg8.IsWhole) (arg9 : Memref sig .tc .vmem S512x3072 .f32) (harg9 : arg9.IsWhole) (arg10 : Memref sig .tc .vmem S512x3072 .f32) (harg10 : arg10.IsWhole) (hc0 : cond0 i) (hc2 : ¬cond2 i)
    (x0 : Vec F S512x3072 .f32) (x1 x2 : Vec F S128x3072 .i32) (x3 x4 : Vec F S128 .f32) (x5 : Vec F S3072x128 .i32) (x6 : Vec F S3072 .f32) (x7 : Vec F S512x3072 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay3 x0 x1 x2 x3 x4 x5 (k0_pay2 (F := F)))) -∗ K ⟨⟩))
      ⊢ wp frame (wpE (defs₀ (F := F)) Variants.none c none) E (cc0__fused_mlp_kernel i arg2 harg2 arg3 harg3 arg4 harg4 arg5 harg5 arg6 harg6 arg7 harg7 arg8 harg8 arg9 harg9 arg10 harg10) K := by
  simp only [cc0__fused_mlp_kernel_eq_skeleton]; unfold cc0__fused_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | exact hc0 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  iexists _; isplitr; rotate_left
  · iexact HS
  ipureintro
  sl_unfold_words
  rw [read_writes_whole_last _ _ hz2]
  simp only [View.readAt_eq_ld, Memref.IsWhole.read_unread, View.ld_unit_zero (S := S512x3072) hz2, View.ld_unit_zero (S := S128x3072) hz2, View.ld_unit_zero (S := S3072x128) hz2, View.ld_unit_zero (S := S128) hz1, View.ld_unit_zero (S := S3072) hz1, View.readCov_unit_zero (S := S512x3072) _ hz2]

set_option maxHeartbeats 1000000 in
/-- A middle chunk (k ≠ 0, k ≠ 63): the accumulator at xs ends at its update; the output buffer is untouched. -/
theorem kernelRun_B (c : Dev nD) (i : grid0.Coords) (arg2 : Memref sig .tc .vmem S512x3072 .f32) (harg2 : arg2.IsWhole) (arg3 : Memref sig .tc .vmem S128x3072 .i32) (harg3 : arg3.IsWhole) (arg4 : Memref sig .tc .vmem S128x3072 .i32) (harg4 : arg4.IsWhole) (arg5 : Memref sig .tc .vmem S128 .f32) (harg5 : arg5.IsWhole) (arg6 : Memref sig .tc .vmem S128 .f32) (harg6 : arg6.IsWhole) (arg7 : Memref sig .tc .vmem S3072x128 .i32) (harg7 : arg7.IsWhole) (arg8 : Memref sig .tc .vmem S3072 .f32) (harg8 : arg8.IsWhole) (arg9 : Memref sig .tc .vmem S512x3072 .f32) (harg9 : arg9.IsWhole) (arg10 : Memref sig .tc .vmem S512x3072 .f32) (harg10 : arg10.IsWhole) (hc0 : ¬cond0 i) (hc2 : ¬cond2 i)
    (x0 : Vec F S512x3072 .f32) (x1 x2 : Vec F S128x3072 .i32) (x3 x4 : Vec F S128 .f32) (x5 : Vec F S3072x128 .i32) (x6 : Vec F S3072 .f32) (x7 : Vec F S512x3072 .f32) (xs : Vec F S512x3072 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay3 x0 x1 x2 x3 x4 x5 xs)) -∗ K ⟨⟩))
      ⊢ wp frame (wpE (defs₀ (F := F)) Variants.none c none) E (cc0__fused_mlp_kernel i arg2 harg2 arg3 harg3 arg4 harg4 arg5 harg5 arg6 harg6 arg7 harg7 arg8 harg8 arg9 harg9 arg10 harg10) K := by
  simp only [cc0__fused_mlp_kernel_eq_skeleton]; unfold cc0__fused_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs
  sl_exec (disch := first | exact hc0 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  iexists _; isplitr; rotate_left
  · iexact HS
  ipureintro
  sl_unfold_words
  rw [read_writes_whole_last _ _ hz2]
  simp only [View.readAt_eq_ld, Memref.IsWhole.read_unread, View.ld_unit_zero (S := S512x3072) hz2, View.ld_unit_zero (S := S128x3072) hz2, View.ld_unit_zero (S := S3072x128) hz2, View.ld_unit_zero (S := S128) hz1, View.ld_unit_zero (S := S3072) hz1]

set_option maxHeartbeats 1000000 in
/-- The last chunk (k = 63, not the first): the accumulator at xs ends at its update, and the output buffer, at anything, at the update times the broadcast scale row. -/
theorem kernelRun_C (c : Dev nD) (i : grid0.Coords) (arg2 : Memref sig .tc .vmem S512x3072 .f32) (harg2 : arg2.IsWhole) (arg3 : Memref sig .tc .vmem S128x3072 .i32) (harg3 : arg3.IsWhole) (arg4 : Memref sig .tc .vmem S128x3072 .i32) (harg4 : arg4.IsWhole) (arg5 : Memref sig .tc .vmem S128 .f32) (harg5 : arg5.IsWhole) (arg6 : Memref sig .tc .vmem S128 .f32) (harg6 : arg6.IsWhole) (arg7 : Memref sig .tc .vmem S3072x128 .i32) (harg7 : arg7.IsWhole) (arg8 : Memref sig .tc .vmem S3072 .f32) (harg8 : arg8.IsWhole) (arg9 : Memref sig .tc .vmem S512x3072 .f32) (harg9 : arg9.IsWhole) (arg10 : Memref sig .tc .vmem S512x3072 .f32) (harg10 : arg10.IsWhole) (hc0 : ¬cond0 i) (hc2 : cond2 i)
    (x0 : Vec F S512x3072 .f32) (x1 x2 : Vec F S128x3072 .i32) (x3 x4 : Vec F S128 .f32) (x5 : Vec F S3072x128 .i32) (x6 : Vec F S3072 .f32) (x7 : Vec F S512x3072 .f32) (xs : Vec F S512x3072 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay1 (k0_pay3 x0 x1 x2 x3 x4 x5 xs) x6) ∗ owns (c : Thread nD τ) arg10 fullShare (k0_pay3 x0 x1 x2 x3 x4 x5 xs)) -∗ K ⟨⟩))
      ⊢ wp frame (wpE (defs₀ (F := F)) Variants.none c none) E (cc0__fused_mlp_kernel i arg2 harg2 arg3 harg3 arg4 harg4 arg5 harg5 arg6 harg6 arg7 harg7 arg8 harg8 arg9 harg9 arg10 harg10) K := by
  simp only [cc0__fused_mlp_kernel_eq_skeleton]; unfold cc0__fused_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs
  sl_exec (disch := first | exact hc0 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; rotate_left
    · iexact H7
    ipureintro
    sl_unfold_words
    rw [read_writes_whole_last _ _ hz2]
    simp only [View.readAt_eq_ld, Memref.IsWhole.read_unread, View.ld_unit_zero (S := S512x3072) hz2, View.ld_unit_zero (S := S128x3072) hz2, View.ld_unit_zero (S := S3072x128) hz2, View.ld_unit_zero (S := S128) hz1, View.ld_unit_zero (S := S3072) hz1, View.readCov_unit_zero (S := S512x3072) _ hz2]
  iexists _; isplitr; rotate_left
  · iexact HS
  ipureintro
  sl_unfold_words
  rw [read_writes_whole_last _ _ hz2]
  simp only [View.readAt_eq_ld, Memref.IsWhole.read_unread, View.ld_unit_zero (S := S512x3072) hz2, View.ld_unit_zero (S := S128x3072) hz2, View.ld_unit_zero (S := S3072x128) hz2, View.ld_unit_zero (S := S128) hz1, View.ld_unit_zero (S := S3072) hz1]

end Cert.Kernel.Hand

end
-- ==== Proof.BodyOblK.lean ====
/-
  The body at every grid point: the three control cases joined.

  At a point the seven input buffers hold their blocks; the accumulator holds what the point before left (anything
  at the very first point). By the chunk index the point is a first chunk (reset, then update), a middle chunk
  (update), or a last chunk (update, then the scaled accumulator into the output buffer); away from last chunks the
  output buffer is handed back untouched.
-/
import proofs.«124556_j48241072668862_1_alg».proof.Proof.BodyRunK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Each window's current staging memref at point `t`, as the pipeline passes it, and its wholeness. -/
abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)
abbrev ms7 (t : Fin cfg0.N) := win0_7.stage (cfg0.slots t 7)
abbrev hs7 (t : Fin cfg0.N) : (ms7 t).IsWhole := hstage0_7 ((cfg0.slots t 7).cast nbuf0_7)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- An input window is never idle: its buffer is handed back at its block. -/
theorem leaves_in0 (c : Dev nD) (t : Fin cfg0.N) :
    (dats m 0 c).leavesExact 0 t = owns (c : Thread nD τ) (ms0 t) fullShare (iblk m c 0 t) := by
  unfold Dat.leavesExact; rw [show cfg0.idle 0 (cfg0.grid.coords t) = false from rfl, after0]
theorem leaves_in1 (c : Dev nD) (t : Fin cfg0.N) :
    (dats m 0 c).leavesExact 1 t = owns (c : Thread nD τ) (ms1 t) fullShare (iblk m c 1 t) := by
  unfold Dat.leavesExact; rw [show cfg0.idle 1 (cfg0.grid.coords t) = false from rfl, after1]
theorem leaves_in2 (c : Dev nD) (t : Fin cfg0.N) :
    (dats m 0 c).leavesExact 2 t = owns (c : Thread nD τ) (ms2 t) fullShare (iblk m c 2 t) := by
  unfold Dat.leavesExact; rw [show cfg0.idle 2 (cfg0.grid.coords t) = false from rfl, after2]
theorem leaves_in3 (c : Dev nD) (t : Fin cfg0.N) :
    (dats m 0 c).leavesExact 3 t = owns (c : Thread nD τ) (ms3 t) fullShare (iblk m c 3 t) := by
  unfold Dat.leavesExact; rw [show cfg0.idle 3 (cfg0.grid.coords t) = false from rfl, after3]
theorem leaves_in4 (c : Dev nD) (t : Fin cfg0.N) :
    (dats m 0 c).leavesExact 4 t = owns (c : Thread nD τ) (ms4 t) fullShare (iblk m c 4 t) := by
  unfold Dat.leavesExact; rw [show cfg0.idle 4 (cfg0.grid.coords t) = false from rfl, after4]
theorem leaves_in5 (c : Dev nD) (t : Fin cfg0.N) :
    (dats m 0 c).leavesExact 5 t = owns (c : Thread nD τ) (ms5 t) fullShare (iblk m c 5 t) := by
  unfold Dat.leavesExact; rw [show cfg0.idle 5 (cfg0.grid.coords t) = false from rfl, after5]
theorem leaves_in6 (c : Dev nD) (t : Fin cfg0.N) :
    (dats m 0 c).leavesExact 6 t = owns (c : Thread nD τ) (ms6 t) fullShare (iblk m c 6 t) := by
  unfold Dat.leavesExact; rw [show cfg0.idle 6 (cfg0.grid.coords t) = false from rfl, after6]

set_option maxHeartbeats 4800000 in
/-- The body at any point, by the chunk index. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3, leaves_in4, leaves_in5, leaves_in6]
  have hN : t.val < 1024 := lt_of_lt_of_eq t.isLt (show cfg0.N = 1024 from N_0)
  by_cases h0 : t.val % 64 = 0
  · have h2 : ¬t.val % 64 = 63 := by omega
    rw [Dat.leavesExact_idle (dats m 0 c) 7 t (idleAt7 t (fun h => h2 ((hcond2 t).mp h))) (noFlush7 t (fun h => h2 ((hcond2 t).mp h)))]
    rw [accAt_first m c t h0]
    by_cases hz : t.val = 0
    · rw [PhiS_castSucc m c t, PhiS_zero m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun_A c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((hcond0 t).mpr h0) (fun h => h2 ((hcond2 t).mp h)) (iblk m c 0 t) (iblk m c 1 t) (iblk m c 2 t) (iblk m c 3 t) (iblk m c 4 t) (iblk m c 5 t) (iblk m c 6 t) ((dats m 0 c).before 7 t d7) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun_A c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((hcond0 t).mpr h0) (fun h => h2 ((hcond2 t).mp h)) (iblk m c 0 t) (iblk m c 1 t) (iblk m c 2 t) (iblk m c 3 t) (iblk m c 4 t) (iblk m c 5 t) (iblk m c 6 t) ((dats m 0 c).before 7 t d7) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun h => h0 (by rw [h])
    rw [accAt_later m c t h0, PhiS_castSucc m c t, PhiS_pos m c _ _ hz]
    by_cases h2 : t.val % 64 = 63
    · rw [show (dats m 0 c).leavesExact 7 t = owns (c : Thread nD τ) (ms7 t) fullShare ((dats m 0 c).after 7 t) from by
        unfold Dat.leavesExact; rw [liveAt7 t ((hcond2 t).mpr h2)], after7, accAt_later m c t h0]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun_C c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => h0 ((hcond0 t).mp h)) ((hcond2 t).mpr h2) (iblk m c 0 t) (iblk m c 1 t) (iblk m c 2 t) (iblk m c 3 t) (iblk m c 4 t) (iblk m c 5 t) (iblk m c 6 t) ((dats m 0 c).before 7 t d7) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dats m 0 c) 7 t (idleAt7 t (fun h => h2 ((hcond2 t).mp h))) (noFlush7 t (fun h => h2 ((hcond2 t).mp h)))]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun_B c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => h0 ((hcond0 t).mp h)) (fun h => h2 ((hcond2 t).mp h)) (iblk m c 0 t) (iblk m c 1 t) (iblk m c 2 t) (iblk m c 3 t) (iblk m c 4 t) (iblk m c 5 t) (iblk m c 6 t) ((dats m 0 c).before 7 t d7) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.RunK.lean ====
/-
  The program's run: one reshape on the host, the fused kernel's region over the 16 × 64 grid, one reshape back.

  The region is entered holding every array whole; the weight array and the scale vector that two windows each
  stage are dealt half to each of their two windows. The accumulator enters the region's invariant at anything
  and leaves it forgotten. After the region the result array holds what the write-backs left (one block of 512
  rows per row tile), every argument is as launched, and the last reshape copies the result to its final shape.
-/
import proofs.«124556_j48241072668862_1_alg».proof.Proof.CommonK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, window by window -/

/-- The distinct buffers behind the windows' arrays, listed. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_arg2) ↦{fullShare} W main_arg2)
          ∗ (((c : Thread nD τ).loc main_arg3) ↦{fullShare} W main_arg3) ∗ (((c : Thread nD τ).loc main_arg4) ↦{fullShare} W main_arg4)
          ∗ (((c : Thread nD τ).loc main_v0) ↦{fullShare} W main_v0) ∗ (((c : Thread nD τ).loc main_v1) ↦{fullShare} W main_v1)) := by
  unfold Pipeline.arrBufs
  exact bigSep_eq_bigSepL_of_eq [main_arg1, main_arg2, main_arg3, main_arg4, main_v0, main_v1] (by decide) (by decide) _

/-- One window's array, as a points-to of the buffer behind it. -/
theorem arr_pt (c : Dev nD) (w : Fin cfg0.W) (q : PosShare TreeShare) (f : Buf (Elt F) ((cfg0.win w).arr.view.loc (c : Thread nD τ))) :
    ((cfg0.win w).arr.view.loc (c : Thread nD τ) ↦[(cfg0.win w).arr.view.set]{q} f : sProp 𝕄)
      = (((c : Thread nD τ).loc (Pipeline.arrRef spec0 w)) ↦{q} f) := by
  rw [(arr_whole0 w).set_eq_univ]

/-- Each window's share of its array: the two windows on one array hold its two halves. -/
theorem share_0 (c : Dev nD) : (dats m 0 c).share 0 = fullShare := by unfold Dat.share; split <;> rfl
theorem share_1 (c : Dev nD) : (dats m 0 c).share 1 = fullShare.left := by unfold Dat.share; split <;> first | rfl | (rename_i h; exact absurd h (by decide))
theorem share_2 (c : Dev nD) : (dats m 0 c).share 2 = fullShare.right := by unfold Dat.share; split <;> first | rfl | (rename_i h; exact absurd h (by decide))
theorem share_3 (c : Dev nD) : (dats m 0 c).share 3 = fullShare.left := by unfold Dat.share; split <;> first | rfl | (rename_i h; exact absurd h (by decide))
theorem share_4 (c : Dev nD) : (dats m 0 c).share 4 = fullShare.right := by unfold Dat.share; split <;> first | rfl | (rename_i h; exact absurd h (by decide))
theorem share_5 (c : Dev nD) : (dats m 0 c).share 5 = fullShare := by unfold Dat.share; split <;> rfl
theorem share_6 (c : Dev nD) : (dats m 0 c).share 6 = fullShare := by unfold Dat.share; split <;> rfl
theorem share_7 (c : Dev nD) : (dats m 0 c).share 7 = fullShare := by unfold Dat.share; split <;> rfl

/-- The pipeline's arrays at contents `G`, window by window at its share. -/
theorem arrays0_eq (c : Dev nD) (G : (w : Fin cfg0.W) → Buf (Elt F) ((cfg0.win w).arr.view.loc (c : Thread nD τ))) :
    ((dats m 0 c).arrays G : sProp 𝕄)
      = iprop((((c : Thread nD τ).loc main_v0) ↦{fullShare} G 0) ∗ (((c : Thread nD τ).loc main_arg1) ↦{fullShare.left} G 1)
          ∗ (((c : Thread nD τ).loc main_arg1) ↦{fullShare.right} G 2) ∗ (((c : Thread nD τ).loc main_arg2) ↦{fullShare.left} G 3)
          ∗ (((c : Thread nD τ).loc main_arg2) ↦{fullShare.right} G 4) ∗ (((c : Thread nD τ).loc main_arg3) ↦{fullShare} G 5)
          ∗ (((c : Thread nD τ).loc main_arg4) ↦{fullShare} G 6) ∗ (((c : Thread nD τ).loc main_v1) ↦{fullShare} G 7)) := by
  have h : ((dats m 0 c).arrays G : sProp 𝕄)
      = bigSep Finset.univ fun w : Fin cfg0.W => (((c : Thread nD τ).loc (Pipeline.arrRef spec0 w)) ↦{(dats m 0 c).share w} G w : sProp 𝕄) := by
    unfold Dat.arrays; exact bigSep_congr fun w _ => arr_pt c w _ _
  rw [h, bigSep_W0, share_0 m c, share_1 m c, share_2 m c, share_3 m c, share_4 m c, share_5 m c, share_6 m c, share_7 m c]

/-! ## The segments of the program -/

abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers: the core owing nothing. -/
abbrev R (c : Dev nD) : sProp 𝕄 := iprop(∃ W, owes (c : Thread nD τ) (0 : CellTallies nD τ sig Unit) W)

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- The reshape before the region writes only its own result: every other buffer reaches the region as launched. -/
theorem V_of_ne (c : Dev nD) (b : Ref sig .tc) (hb : b ≠ main_v0) : V m c b = m ((c : Thread nD τ).loc b) :=
  StableHlo.after_of_forall_not_mem (b := Proc.devRef .tc b) hostOps0 (V₀ m c) (by
    intro op hop
    obtain rfl := List.mem_singleton.mp hop
    simp only [StableHlo.reshape_writes, Finset.mem_singleton]
    exact StableHlo.devRef_ne_of_ne hb)

/-- THE FIRST HOST SEGMENT: the reshape of the first argument, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hostOps0_fresh (V₀ m) R

/-- Core `c`'s buffers when the region is left: the result array at what the write-backs left, the rest as entered. -/
abbrev V1 (c : Dev nD) : Valuation τ sig (Elt F) :=
  Function.update (V0 m c) (Proc.devRef .tc main_v1) ((dats m 0 c).arrAt 7 cfg0.N)

/-- The two buffers the last reshape touches. -/
abbrev S1 : Finset (DevRef τ sig) := {Proc.devRef .tc main_v1, Proc.devRef .tc main_v2}

/-- The input windows' arrays after the region, each at its share, -/
abbrev inputsAt (c : Dev nD) : sProp 𝕄 :=
  iprop((((c : Thread nD τ).loc main_v0) ↦{fullShare} (dats m 0 c).arrAt 0 cfg0.N) ∗ (((c : Thread nD τ).loc main_arg1) ↦{fullShare.left} (dats m 0 c).arrAt 1 cfg0.N)
    ∗ (((c : Thread nD τ).loc main_arg1) ↦{fullShare.right} (dats m 0 c).arrAt 2 cfg0.N) ∗ (((c : Thread nD τ).loc main_arg2) ↦{fullShare.left} (dats m 0 c).arrAt 3 cfg0.N)
    ∗ (((c : Thread nD τ).loc main_arg2) ↦{fullShare.right} (dats m 0 c).arrAt 4 cfg0.N) ∗ (((c : Thread nD τ).loc main_arg3) ↦{fullShare} (dats m 0 c).arrAt 5 cfg0.N)
    ∗ (((c : Thread nD τ).loc main_arg4) ↦{fullShare} (dats m 0 c).arrAt 6 cfg0.N))
/-- and with them the first argument, which no window stages, and the core owing nothing: what rides through the last reshape. -/
abbrev R1 (c : Dev nD) : sProp 𝕄 :=
  iprop(inputsAt m c ∗ (((c : Thread nD τ).loc main_arg0) ↦{fullShare} V m c main_arg0) ∗ R c)

/-- THE LAST HOST SEGMENT: the reshape of the result, over the two buffers it touches. -/
def seg1 : Pipeline.HostSeg (Name := ℕ) (U := UR sig nD τ) (pcfgs (F := F)) defs₀ 𝒱₀ L lv :=
  Pipeline.HostSeg.ofOps _ _ _ _ _ S1 hostOps1
    (fun op h => by obtain rfl := List.mem_singleton.mp h; exact Finset.Subset.refl _) hostOps1_fresh (V1 m) (R1 m)

/-- The two buffers of the last reshape, held one by one. -/
theorem held_S1 (c : Dev nD) (W : Valuation τ sig (Elt F)) :
    (StableHlo.held (c : Thread nD τ) S1 W : sProp 𝕄)
      = iprop((((c : Thread nD τ).loc main_v1) ↦{fullShare} W (Proc.devRef .tc main_v1)) ∗ (((c : Thread nD τ).loc main_v2) ↦{fullShare} W (Proc.devRef .tc main_v2))) := by
  unfold StableHlo.held
  rw [BI.bigSep_insert (by decide), BI.bigSep_singleton]
  rfl

/-! ## The region -/

set_option backward.isDefEq.respectTransparency.types false in
/-- THE REGION: the layout (windows may share an array), no semaphore of the kernel's own, the body obligation;
    entered from what the first reshape left — each array into the pipeline at its windows' shares, the scratch into
    the invariant, the first argument and the final result's buffer bypassing —, left with the result array at what the
    write-backs made of it. -/
def reg0 (hbody : ∀ c, BodyObligation (dats m 0 c) (defs₀ (F := F)) 𝒱₀ () Set.univ) :
    Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (hbody c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) S1 (V1 m c) ∗ R1 m c)
  X c := iprop(emp)
  Y c := iprop(emp)
  Z c := iprop((((c : Thread nD τ).loc main_arg0) ↦{fullShare} V m c main_arg0) ∗ (((c : Thread nD τ).loc main_v2) ↦{fullShare} V m c main_v2))
  hentry c := by
    rw [show StableHlo.held (c : Thread nD τ) (Pipeline.ucRefs τ sig) (V0 m c) = unscopedBufs c (V m c) from (Pipeline.unscopedBufs_held c _).symm,
      Pipeline.unscopedBufs_split₀ cfgs 0 winFacts₀0.arr_unscoped c (V m c), arrBufs0_eq, unscopedRest0_eq, arrays0_eq]
    iintro ⟨⟨⟨⟨H1, H2, H3, H4, Hv0, Hv1⟩, Ha0, Hv2⟩, HO⟩, -, -⟩
    ihave H1' := (pointsTo_share (PosShare.mem_left_op_right fullShare)).1 $$ H1
    icases H1' with ⟨H1l, H1r⟩
    ihave H2' := (pointsTo_share (PosShare.mem_left_op_right fullShare)).1 $$ H2
    icases H2' with ⟨H2l, H2r⟩
    imodintro
    isplitl [Hv0 H1l H1r H2l H2r H3 H4 Hv1]
    · isplitl [Hv0]; · iexact Hv0
      isplitl [H1l]; · iexact H1l
      isplitl [H1r]; · iexact H1r
      isplitl [H2l]; · iexact H2l
      isplitl [H2r]; · iexact H2r
      isplitl [H3]; · iexact H3
      isplitl [H4]; · iexact H4
      iexact Hv1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Ha0]; · iexact Ha0
    iexact Hv2
  hin c := by
    rw [show (dats m 0 c).Φ 0 = iprop(∃ d, owns (c : Thread nD τ) scM fullShare d) from rfl, scopedRest0_eq]
    simp only [scM, owns_whole]
    iintro ⟨-, -, Hr⟩; iexact Hr
  hout c := by
    rw [Pipeline.ownSems0_none, scopedRest0_eq,
      show (dats m 0 c).Φ (Fin.last cfg0.N) = PhiS m c cfg0.N (le_refl _) from rfl,
      PhiS_pos m c _ _ (by rw [show cfg0.N = 1024 from N_0]; decide)]
    simp only [scM, owns_whole]
    iintro H
    isplitr; · iempintro
    isplitr; · iempintro
    iexists _; iexact H
  hexit c := by
    rw [arrays0_eq]
    iintro ⟨⟨Hv0, H1l, H1r, H2l, H2r, H3, H4, Hv1⟩, HO, -, ⟨Ha0, Hv2⟩⟩
    imodintro
    isplitl [Hv1 Hv2]
    · rw [held_S1]
      isplitl [Hv1]
      · rw [show V1 m c (Proc.devRef .tc main_v1) = (dats m 0 c).arrAt 7 cfg0.N from Function.update_self ..]
        iexact Hv1
      · rw [show V1 m c (Proc.devRef .tc main_v2) = V m c main_v2 from Function.update_of_ne (by decide) ..]
        iexact Hv2
    isplitl [Hv0 H1l H1r H2l H2r H3 H4]
    · isplitl [Hv0]; · iexact Hv0
      isplitl [H1l]; · iexact H1l
      isplitl [H1r]; · iexact H1r
      isplitl [H2l]; · iexact H2l
      isplitl [H2r]; · iexact H2r
      isplitl [H3]; · iexact H3
      iexact H4
    isplitl [Ha0]; · iexact Ha0
    unfold Pipeline.Dat.owesAt Pipeline.owesWithin
    icases HO with ⟨%W, -, HO⟩; iexists W; iexact HO

/-! ## The run -/

/-- @main as the list of its three segments. -/
abbrev segs (hbody : ∀ c, BodyObligation (dats m 0 c) (defs₀ (F := F)) 𝒱₀ () Set.univ) :
    List (Pipeline.Seg (pcfgs (F := F)) adm (dats m) () defs₀ 𝒱₀ L lv) :=
  [.host (seg0 m), .region (reg0 m hbody), .host (seg1 m)]

/-- What the final result's buffer holds at the end: the last reshape of the result array as the region left it. -/
abbrev outArr (c : Dev nD) : Buf (Elt F) ((c : Thread nD τ).loc main_v2) :=
  StableHlo.after hostOps1 (V1 m c) (Proc.devRef .tc main_v2)

set_option backward.isDefEq.respectTransparency.types false in
/-- At the compiled mesh, for any float values, from any memory with zero counters: every weakly fair execution of
    @main on the TensorCores terminates, the final result's buffer holds the reshape of the result array as the region's
    write-backs left it, and the five arguments are as launched. -/
theorem run_main (hbody : ∀ c, BodyObligation (dats m 0 c) (defs₀ (F := F)) 𝒱₀ () Set.univ) :
    θ_run defs (onTc (τ := τ) (main (F := F))) ⟨m, fun _ => 0, ρ⟩ (fun r => ∀ c : Dev nD,
      r.2.mem ((c : Thread nD τ).loc main_v2) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  Pipeline.θ_run_regions_kit (pcfgs (F := F)) adm (dats m) () cellOf_inj EP defs₀ 𝒱₀ L lv m ρ main (segs m hbody)
    (fun c Q => by rw [main_segs adm (dats m) () 𝒱₀ L lv (seg0 m) (seg1 m) (reg0 m hbody) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu
      imodintro
      isplitl [Hu]
      · iapply (show (ownU _ : sProp 𝕄) ⊢ BI.own (EP (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => iprop(StableHlo.held (c : Thread nD τ) S1 (StableHlo.after hostOps1 (V1 m c)) ∗ inputsAt m c
      ∗ (((c : Thread nD τ).loc main_arg0) ↦{fullShare} V m c main_arg0)))
    (hch := ⟨fun _ => .rfl, fun _ => .rfl, fun _ => .rfl, fun c => by
      refine (show iprop(StableHlo.held (c : Thread nD τ) S1 (StableHlo.after hostOps1 (V1 m c)) ∗ R1 m c) ⊢ _ from ?_)
      iintro ⟨Hh, Hi, Ha, HR⟩
      isplitr [HR]
      · isplitl [Hh]; · iexact Hh
        isplitl [Hi] <;> iassumption
      · iexact HR⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v2) = outArr m c
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4))
    (hfin := fun c s' => by
      rw [held_S1]
      iintro ⟨⟨⟨Hv1, Hv2⟩, ⟨Hv0, H1l, H1r, H2l, H2r, H3, H4⟩, Ha0⟩, HSI⟩
      icombine HSI Hv2 gives %h2
      icombine HSI Ha0 gives %h0
      icombine HSI H1l gives %h1
      icombine HSI H2l gives %h2'
      icombine HSI H3 gives %h3
      icombine HSI H4 gives %h4
      imodintro
      isplitr; swap; (· iexact HSI)
      ipureintro
      exact ⟨Buf.eq_of_forall_mem_univ h2,
        (Buf.eq_of_forall_mem_univ h0).trans (V_of_ne m c main_arg0 (by decide)),
        (Buf.eq_of_forall_mem_univ h1).trans (((dats m 0 c).arrAt_in 1 rfl _).trans ((A_eq m c 1).trans (V_of_ne m c main_arg1 (by decide)))),
        (Buf.eq_of_forall_mem_univ h2').trans (((dats m 0 c).arrAt_in 3 rfl _).trans ((A_eq m c 3).trans (V_of_ne m c main_arg2 (by decide)))),
        (Buf.eq_of_forall_mem_univ h3).trans (((dats m 0 c).arrAt_in 5 rfl _).trans ((A_eq m c 5).trans (V_of_ne m c main_arg3 (by decide)))),
        (Buf.eq_of_forall_mem_univ h4).trans (((dats m 0 c).arrAt_in 6 rfl _).trans ((A_eq m c 6).trans (V_of_ne m c main_arg4 (by decide))))⟩)
    (hQ := fun _ h => h)

/-- The last reshape read back: the final result is the result array at the final shape. -/
theorem outArr_eq (c : Dev nD) :
    outArr m c = fun i => shapeCast S4x2048x3072 ((dats m 0 c).arrAt 7 cfg0.N) shapeCasts_S8192x3072_S4x2048x3072 i := by
  show (StableHlo.reshape main_v1 main_v2 rfl shapeCasts_S8192x3072_S4x2048x3072 : HloOp τ sig (Elt F)).result (V1 m c) (Proc.devRef .tc main_v2) = _
  rw [StableHlo.reshape_result]
  rw [show V1 m c (Proc.devRef .tc main_v1) = (dats m 0 c).arrAt 7 cfg0.N from Function.update_self ..]
  rfl

end Cert.Kernel.Hand

end
-- ==== Proof.CommonI.lean ====
/-
  The fused gated projection's pipeline, point by point: what each staging buffer and the accumulator hold.

  The grid is 16 row tiles by 64 chunks of the hidden axis, point t = 64·i + k. Every input window's buffer holds
  its block of the array it stages (two windows stage two different row ranges of ONE weight array, and two more
  two ranges of ONE scale vector). The accumulator, a scratch kept between points, holds after point t the
  body's update applied to the zero block at k = 0 and to what the point before left otherwise; at k = 63 the
  output buffer receives the accumulator times the broadcast scale row, and is written back.
-/
import proofs.«124556_j48241072668862_1_alg».proof.Proof.Gen.KernelIdeal.Launch
import proofs.«124556_j48241072668862_1_alg».proof.Proof.Gen.KernelIdeal.Skeleton
import proofs.«124556_j48241072668862_1_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s buffers at launch, as a valuation; -/
abbrev V₀ (c : Dev nD) : Valuation τ sig (Elt F) := fun b => m (c, b)
/-- and when the region is entered: the one reshape before it has run. -/
abbrev V0 (c : Dev nD) : Valuation τ sig (Elt F) := StableHlo.after hostOps0 (V₀ m c)
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two conditions of the body, over the grid -/

/-- "this is the first chunk" (k = 0), as the body computes it; -/
abbrev cond0 (i : grid0.Coords) : Prop := (Scalar.cmpi .ne (Scalar.extui (Scalar.cmpi .eq (BitVec.ofNat 32 (i 1).val) 0#32)) 0#32) = 1#1
/-- it holds at the points ≡ 0 (mod 64). -/
theorem hcond0 : ∀ t : Fin cfg0.N, cond0 (grid0.coords t) ↔ t.val % 64 = 0 :=
  (by decide +kernel : ∀ t : Fin grid0.N, cond0 (grid0.coords t) ↔ t.val % 64 = 0)
/-- "this is the last chunk" (k = 63); -/
abbrev cond2 (i : grid0.Coords) : Prop := k0_cond2 i = 1#1
/-- it holds at the points ≡ 63 (mod 64). -/
theorem hcond2 : ∀ t : Fin cfg0.N, cond2 (grid0.coords t) ↔ t.val % 64 = 63 :=
  (by decide +kernel : ∀ t : Fin grid0.N, cond2 (grid0.coords t) ↔ t.val % 64 = 63)

/-- Away from the last chunk the output window is idle and not written back; at it, live. -/
theorem idleAt7 : ∀ t : Fin cfg0.N, ¬cond2 (grid0.coords t) → cfg0.idle 7 (grid0.coords t) = true := by decide +kernel
theorem noFlush7 : ∀ t : Fin cfg0.N, ¬cond2 (grid0.coords t) → (cfg0.win 7).flush t = false := by decide +kernel
theorem liveAt7 : ∀ t : Fin cfg0.N, cond2 (grid0.coords t) → cfg0.idle 7 (grid0.coords t) = false := by decide +kernel

/-! ## The accumulator and the output block, point by point -/

/-- The scratch accumulator, as a memref. -/
abbrev scM : Memref sig .tc .vmem S512x3072 .f32 := Memref.whole cc0_scratch0

/-- What the accumulator holds after the body at position `n`: the update of the zero block at the first chunk of
    a row tile, of what the point before left otherwise. -/
def accAt (c : Dev nD) : (n : ℕ) → n < cfg0.N → Vec F S512x3072 .f32
  | 0, hn => k0_pay3 (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (k0_pay2 (F := F))
  | n + 1, hn => k0_pay3 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
      (if (n + 1) % 64 = 0 then k0_pay2 (F := F) else accAt c n (Nat.lt_of_succ_lt hn))

/-- At the first chunk of a row tile: the update of the zero block. -/
theorem accAt_first (c : Dev nD) (t : Fin cfg0.N) (h0 : t.val % 64 = 0) :
    accAt m c t.val t.isLt = k0_pay3 (iblk m c 0 t) (iblk m c 1 t) (iblk m c 2 t) (iblk m c 3 t) (iblk m c 4 t) (iblk m c 5 t) (k0_pay2 (F := F)) := by
  obtain ⟨n, hn⟩ := t
  cases n with
  | zero => rfl
  | succ n => exact congrArg _ (if_pos h0)

/-- At a later chunk: the update of what the point before left. -/
theorem accAt_later (c : Dev nD) (t : Fin cfg0.N) (h0 : ¬t.val % 64 = 0) :
    accAt m c t.val t.isLt = k0_pay3 (iblk m c 0 t) (iblk m c 1 t) (iblk m c 2 t) (iblk m c 3 t) (iblk m c 4 t) (iblk m c 5 t)
      (accAt m c (t.val - 1) (Nat.lt_of_le_of_lt (Nat.sub_le _ _) t.isLt)) := by
  obtain ⟨n, hn⟩ := t
  cases n with
  | zero => exact absurd (Nat.zero_mod _) h0
  | succ n => exact congrArg _ (if_neg h0)

/-- The region invariant before position `n`: before the first point the scratch at anything; afterwards at what
    the point before left in it. -/
def PhiS (c : Dev nD) : (n : ℕ) → n ≤ cfg0.N → sProp 𝕄
  | 0, _ => iprop(∃ d, owns (c : Thread nD τ) scM fullShare d)
  | n + 1, hn => owns (c : Thread nD τ) scM fullShare (accAt m c n hn)

theorem PhiS_zero (c : Dev nD) (n : ℕ) (h : n ≤ cfg0.N) (hz : n = 0) :
    PhiS m c n h = iprop(∃ d, owns (c : Thread nD τ) scM fullShare d) := by subst hz; rfl
theorem PhiS_succ (c : Dev nD) (n : ℕ) (hn : n < cfg0.N) :
    PhiS m c (n + 1) hn = owns (c : Thread nD τ) scM fullShare (accAt m c n hn) := rfl
theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The pipeline's proof data -/

/-- The proof data on core `c`: the arrays as the region finds them; after the body each input's buffer at its
    block and the output's at the scaled accumulator; the invariant the accumulator's contents; nothing owed; an
    array staged by two windows held half by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay1 (accAt m c t.val t.isLt) (iblk m c 6 t)
  Φ t := PhiS m c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) :
    (dats m 0 c).after 7 t = k0_pay1 (accAt m c t.val t.isLt) (iblk m c 6 t) := by dsimp only [dats]

/-- Each input's current staging buffer holds its block at every point, fetched there or not: an input is never
    idle, its blocks are uncut, and the body leaves it in place. -/
theorem before_in0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before_in1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before_in2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before_in3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before_in4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before_in5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before_in6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)

end Cert.KernelIdeal.Hand

end
-- ==== Proof.BodyRunI.lean ====
/-
  One run of the fused body on whole staging buffers, in each of its three control cases.

  The body loads the x block, the two weight chunks with their scales and the down chunk, and stores into the
  accumulator the update  acc + hidden · dwᵀ  of what the accumulator held; at the first chunk of a row tile it
  first stores the zero block, so the update it then stores is that of the zero block; at the last chunk it also
  stores into the output buffer the updated accumulator times the scale row laid over the rows. Every load and
  store is of a whole buffer, so each buffer ends at the last block stored into it, and an input buffer as it was.
-/
import proofs.«124556_j48241072668862_1_alg».proof.Proof.CommonI
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer rectangles -/

/-- The zero offsets of a whole-buffer rectangle, rank 2 and rank 1. -/
theorem hz2 : (![0, 0] : Fin 2 → Nat) = fun _ => 0 := funext fun a => by fin_cases a <;> rfl
theorem hz1 : (![0] : Fin 1 → Nat) = fun _ => 0 := funext fun a => by fin_cases a <;> rfl

/-- A whole buffer, after a last store of the whole block, reads that block, whatever was stored before. -/
theorem read_writes_whole_last {S : Shape} {e : EltTy} (v : View sig .tc .vmem S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hz inb y⟩),
    View.canon_cons_unit_zero hz inb]

/-! ## The three control cases -/

set_option maxHeartbeats 1000000 in
/-- First chunk of a row tile (k = 0, not the last): the accumulator, at anything, ends at the update of the zero block; the output buffer is untouched. -/
theorem kernelRun_A (c : Dev nD) (i : grid0.Coords) (arg2 : Memref sig .tc .vmem S512x3072 .f32) (harg2 : arg2.IsWhole) (arg3 : Memref sig .tc .vmem S128x3072 .i32) (harg3 : arg3.IsWhole) (arg4 : Memref sig .tc .vmem S128x3072 .i32) (harg4 : arg4.IsWhole) (arg5 : Memref sig .tc .vmem S128 .f32) (harg5 : arg5.IsWhole) (arg6 : Memref sig .tc .vmem S128 .f32) (harg6 : arg6.IsWhole) (arg7 : Memref sig .tc .vmem S3072x128 .i32) (harg7 : arg7.IsWhole) (arg8 : Memref sig .tc .vmem S3072 .f32) (harg8 : arg8.IsWhole) (arg9 : Memref sig .tc .vmem S512x3072 .f32) (harg9 : arg9.IsWhole) (arg10 : Memref sig .tc .vmem S512x3072 .f32) (harg10 : arg10.IsWhole) (hc0 : cond0 i) (hc2 : ¬cond2 i)
    (x0 : Vec F S512x3072 .f32) (x1 x2 : Vec F S128x3072 .i32) (x3 x4 : Vec F S128 .f32) (x5 : Vec F S3072x128 .i32) (x6 : Vec F S3072 .f32) (x7 : Vec F S512x3072 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay3 x0 x1 x2 x3 x4 x5 (k0_pay2 (F := F)))) -∗ K ⟨⟩))
      ⊢ wp frame (wpE (defs₀ (F := F)) Variants.none c none) E (cc0__fused_mlp_kernel i arg2 harg2 arg3 harg3 arg4 harg4 arg5 harg5 arg6 harg6 arg7 harg7 arg8 harg8 arg9 harg9 arg10 harg10) K := by
  simp only [cc0__fused_mlp_kernel_eq_skeleton]; unfold cc0__fused_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | exact hc0 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  iexists _; isplitr; rotate_left
  · iexact HS
  ipureintro
  sl_unfold_words
  rw [read_writes_whole_last _ _ hz2]
  simp only [View.readAt_eq_ld, Memref.IsWhole.read_unread, View.ld_unit_zero (S := S512x3072) hz2, View.ld_unit_zero (S := S128x3072) hz2, View.ld_unit_zero (S := S3072x128) hz2, View.ld_unit_zero (S := S128) hz1, View.ld_unit_zero (S := S3072) hz1, View.readCov_unit_zero (S := S512x3072) _ hz2]

set_option maxHeartbeats 1000000 in
/-- A middle chunk (k ≠ 0, k ≠ 63): the accumulator at xs ends at its update; the output buffer is untouched. -/
theorem kernelRun_B (c : Dev nD) (i : grid0.Coords) (arg2 : Memref sig .tc .vmem S512x3072 .f32) (harg2 : arg2.IsWhole) (arg3 : Memref sig .tc .vmem S128x3072 .i32) (harg3 : arg3.IsWhole) (arg4 : Memref sig .tc .vmem S128x3072 .i32) (harg4 : arg4.IsWhole) (arg5 : Memref sig .tc .vmem S128 .f32) (harg5 : arg5.IsWhole) (arg6 : Memref sig .tc .vmem S128 .f32) (harg6 : arg6.IsWhole) (arg7 : Memref sig .tc .vmem S3072x128 .i32) (harg7 : arg7.IsWhole) (arg8 : Memref sig .tc .vmem S3072 .f32) (harg8 : arg8.IsWhole) (arg9 : Memref sig .tc .vmem S512x3072 .f32) (harg9 : arg9.IsWhole) (arg10 : Memref sig .tc .vmem S512x3072 .f32) (harg10 : arg10.IsWhole) (hc0 : ¬cond0 i) (hc2 : ¬cond2 i)
    (x0 : Vec F S512x3072 .f32) (x1 x2 : Vec F S128x3072 .i32) (x3 x4 : Vec F S128 .f32) (x5 : Vec F S3072x128 .i32) (x6 : Vec F S3072 .f32) (x7 : Vec F S512x3072 .f32) (xs : Vec F S512x3072 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay3 x0 x1 x2 x3 x4 x5 xs)) -∗ K ⟨⟩))
      ⊢ wp frame (wpE (defs₀ (F := F)) Variants.none c none) E (cc0__fused_mlp_kernel i arg2 harg2 arg3 harg3 arg4 harg4 arg5 harg5 arg6 harg6 arg7 harg7 arg8 harg8 arg9 harg9 arg10 harg10) K := by
  simp only [cc0__fused_mlp_kernel_eq_skeleton]; unfold cc0__fused_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs
  sl_exec (disch := first | exact hc0 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  iexists _; isplitr; rotate_left
  · iexact HS
  ipureintro
  sl_unfold_words
  rw [read_writes_whole_last _ _ hz2]
  simp only [View.readAt_eq_ld, Memref.IsWhole.read_unread, View.ld_unit_zero (S := S512x3072) hz2, View.ld_unit_zero (S := S128x3072) hz2, View.ld_unit_zero (S := S3072x128) hz2, View.ld_unit_zero (S := S128) hz1, View.ld_unit_zero (S := S3072) hz1]

set_option maxHeartbeats 1000000 in
/-- The last chunk (k = 63, not the first): the accumulator at xs ends at its update, and the output buffer, at anything, at the update times the broadcast scale row. -/
theorem kernelRun_C (c : Dev nD) (i : grid0.Coords) (arg2 : Memref sig .tc .vmem S512x3072 .f32) (harg2 : arg2.IsWhole) (arg3 : Memref sig .tc .vmem S128x3072 .i32) (harg3 : arg3.IsWhole) (arg4 : Memref sig .tc .vmem S128x3072 .i32) (harg4 : arg4.IsWhole) (arg5 : Memref sig .tc .vmem S128 .f32) (harg5 : arg5.IsWhole) (arg6 : Memref sig .tc .vmem S128 .f32) (harg6 : arg6.IsWhole) (arg7 : Memref sig .tc .vmem S3072x128 .i32) (harg7 : arg7.IsWhole) (arg8 : Memref sig .tc .vmem S3072 .f32) (harg8 : arg8.IsWhole) (arg9 : Memref sig .tc .vmem S512x3072 .f32) (harg9 : arg9.IsWhole) (arg10 : Memref sig .tc .vmem S512x3072 .f32) (harg10 : arg10.IsWhole) (hc0 : ¬cond0 i) (hc2 : cond2 i)
    (x0 : Vec F S512x3072 .f32) (x1 x2 : Vec F S128x3072 .i32) (x3 x4 : Vec F S128 .f32) (x5 : Vec F S3072x128 .i32) (x6 : Vec F S3072 .f32) (x7 : Vec F S512x3072 .f32) (xs : Vec F S512x3072 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay1 (k0_pay3 x0 x1 x2 x3 x4 x5 xs) x6) ∗ owns (c : Thread nD τ) arg10 fullShare (k0_pay3 x0 x1 x2 x3 x4 x5 xs)) -∗ K ⟨⟩))
      ⊢ wp frame (wpE (defs₀ (F := F)) Variants.none c none) E (cc0__fused_mlp_kernel i arg2 harg2 arg3 harg3 arg4 harg4 arg5 harg5 arg6 harg6 arg7 harg7 arg8 harg8 arg9 harg9 arg10 harg10) K := by
  simp only [cc0__fused_mlp_kernel_eq_skeleton]; unfold cc0__fused_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs
  sl_exec (disch := first | exact hc0 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; rotate_left
    · iexact H7
    ipureintro
    sl_unfold_words
    rw [read_writes_whole_last _ _ hz2]
    simp only [View.readAt_eq_ld, Memref.IsWhole.read_unread, View.ld_unit_zero (S := S512x3072) hz2, View.ld_unit_zero (S := S128x3072) hz2, View.ld_unit_zero (S := S3072x128) hz2, View.ld_unit_zero (S := S128) hz1, View.ld_unit_zero (S := S3072) hz1, View.readCov_unit_zero (S := S512x3072) _ hz2]
  iexists _; isplitr; rotate_left
  · iexact HS
  ipureintro
  sl_unfold_words
  rw [read_writes_whole_last _ _ hz2]
  simp only [View.readAt_eq_ld, Memref.IsWhole.read_unread, View.ld_unit_zero (S := S512x3072) hz2, View.ld_unit_zero (S := S128x3072) hz2, View.ld_unit_zero (S := S3072x128) hz2, View.ld_unit_zero (S := S128) hz1, View.ld_unit_zero (S := S3072) hz1]

end Cert.KernelIdeal.Hand

end
-- ==== Proof.BodyOblI.lean ====
/-
  The body at every grid point: the three control cases joined.

  At a point the seven input buffers hold their blocks; the accumulator holds what the point before left (anything
  at the very first point). By the chunk index the point is a first chunk (reset, then update), a middle chunk
  (update), or a last chunk (update, then the scaled accumulator into the output buffer); away from last chunks the
  output buffer is handed back untouched.
-/
import proofs.«124556_j48241072668862_1_alg».proof.Proof.BodyRunI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Each window's current staging memref at point `t`, as the pipeline passes it, and its wholeness. -/
abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)
abbrev ms7 (t : Fin cfg0.N) := win0_7.stage (cfg0.slots t 7)
abbrev hs7 (t : Fin cfg0.N) : (ms7 t).IsWhole := hstage0_7 ((cfg0.slots t 7).cast nbuf0_7)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- An input window is never idle: its buffer is handed back at its block. -/
theorem leaves_in0 (c : Dev nD) (t : Fin cfg0.N) :
    (dats m 0 c).leavesExact 0 t = owns (c : Thread nD τ) (ms0 t) fullShare (iblk m c 0 t) := by
  unfold Dat.leavesExact; rw [show cfg0.idle 0 (cfg0.grid.coords t) = false from rfl, after0]
theorem leaves_in1 (c : Dev nD) (t : Fin cfg0.N) :
    (dats m 0 c).leavesExact 1 t = owns (c : Thread nD τ) (ms1 t) fullShare (iblk m c 1 t) := by
  unfold Dat.leavesExact; rw [show cfg0.idle 1 (cfg0.grid.coords t) = false from rfl, after1]
theorem leaves_in2 (c : Dev nD) (t : Fin cfg0.N) :
    (dats m 0 c).leavesExact 2 t = owns (c : Thread nD τ) (ms2 t) fullShare (iblk m c 2 t) := by
  unfold Dat.leavesExact; rw [show cfg0.idle 2 (cfg0.grid.coords t) = false from rfl, after2]
theorem leaves_in3 (c : Dev nD) (t : Fin cfg0.N) :
    (dats m 0 c).leavesExact 3 t = owns (c : Thread nD τ) (ms3 t) fullShare (iblk m c 3 t) := by
  unfold Dat.leavesExact; rw [show cfg0.idle 3 (cfg0.grid.coords t) = false from rfl, after3]
theorem leaves_in4 (c : Dev nD) (t : Fin cfg0.N) :
    (dats m 0 c).leavesExact 4 t = owns (c : Thread nD τ) (ms4 t) fullShare (iblk m c 4 t) := by
  unfold Dat.leavesExact; rw [show cfg0.idle 4 (cfg0.grid.coords t) = false from rfl, after4]
theorem leaves_in5 (c : Dev nD) (t : Fin cfg0.N) :
    (dats m 0 c).leavesExact 5 t = owns (c : Thread nD τ) (ms5 t) fullShare (iblk m c 5 t) := by
  unfold Dat.leavesExact; rw [show cfg0.idle 5 (cfg0.grid.coords t) = false from rfl, after5]
theorem leaves_in6 (c : Dev nD) (t : Fin cfg0.N) :
    (dats m 0 c).leavesExact 6 t = owns (c : Thread nD τ) (ms6 t) fullShare (iblk m c 6 t) := by
  unfold Dat.leavesExact; rw [show cfg0.idle 6 (cfg0.grid.coords t) = false from rfl, after6]

set_option maxHeartbeats 4800000 in
/-- The body at any point, by the chunk index. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3, leaves_in4, leaves_in5, leaves_in6]
  have hN : t.val < 1024 := lt_of_lt_of_eq t.isLt (show cfg0.N = 1024 from N_0)
  by_cases h0 : t.val % 64 = 0
  · have h2 : ¬t.val % 64 = 63 := by omega
    rw [Dat.leavesExact_idle (dats m 0 c) 7 t (idleAt7 t (fun h => h2 ((hcond2 t).mp h))) (noFlush7 t (fun h => h2 ((hcond2 t).mp h)))]
    rw [accAt_first m c t h0]
    by_cases hz : t.val = 0
    · rw [PhiS_castSucc m c t, PhiS_zero m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun_A c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((hcond0 t).mpr h0) (fun h => h2 ((hcond2 t).mp h)) (iblk m c 0 t) (iblk m c 1 t) (iblk m c 2 t) (iblk m c 3 t) (iblk m c 4 t) (iblk m c 5 t) (iblk m c 6 t) ((dats m 0 c).before 7 t d7) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun_A c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((hcond0 t).mpr h0) (fun h => h2 ((hcond2 t).mp h)) (iblk m c 0 t) (iblk m c 1 t) (iblk m c 2 t) (iblk m c 3 t) (iblk m c 4 t) (iblk m c 5 t) (iblk m c 6 t) ((dats m 0 c).before 7 t d7) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun h => h0 (by rw [h])
    rw [accAt_later m c t h0, PhiS_castSucc m c t, PhiS_pos m c _ _ hz]
    by_cases h2 : t.val % 64 = 63
    · rw [show (dats m 0 c).leavesExact 7 t = owns (c : Thread nD τ) (ms7 t) fullShare ((dats m 0 c).after 7 t) from by
        unfold Dat.leavesExact; rw [liveAt7 t ((hcond2 t).mpr h2)], after7, accAt_later m c t h0]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun_C c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => h0 ((hcond0 t).mp h)) ((hcond2 t).mpr h2) (iblk m c 0 t) (iblk m c 1 t) (iblk m c 2 t) (iblk m c 3 t) (iblk m c 4 t) (iblk m c 5 t) (iblk m c 6 t) ((dats m 0 c).before 7 t d7) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dats m 0 c) 7 t (idleAt7 t (fun h => h2 ((hcond2 t).mp h))) (noFlush7 t (fun h => h2 ((hcond2 t).mp h)))]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun_B c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => h0 ((hcond0 t).mp h)) (fun h => h2 ((hcond2 t).mp h)) (iblk m c 0 t) (iblk m c 1 t) (iblk m c 2 t) (iblk m c 3 t) (iblk m c 4 t) (iblk m c 5 t) (iblk m c 6 t) ((dats m 0 c).before 7 t d7) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.RunI.lean ====
/-
  The program's run: one reshape on the host, the fused kernel's region over the 16 × 64 grid, one reshape back.

  The region is entered holding every array whole; the weight array and the scale vector that two windows each
  stage are dealt half to each of their two windows. The accumulator enters the region's invariant at anything
  and leaves it forgotten. After the region the result array holds what the write-backs left (one block of 512
  rows per row tile), every argument is as launched, and the last reshape copies the result to its final shape.
-/
import proofs.«124556_j48241072668862_1_alg».proof.Proof.CommonI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, window by window -/

/-- The distinct buffers behind the windows' arrays, listed. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_arg2) ↦{fullShare} W main_arg2)
          ∗ (((c : Thread nD τ).loc main_arg3) ↦{fullShare} W main_arg3) ∗ (((c : Thread nD τ).loc main_arg4) ↦{fullShare} W main_arg4)
          ∗ (((c : Thread nD τ).loc main_v0) ↦{fullShare} W main_v0) ∗ (((c : Thread nD τ).loc main_v1) ↦{fullShare} W main_v1)) := by
  unfold Pipeline.arrBufs
  exact bigSep_eq_bigSepL_of_eq [main_arg1, main_arg2, main_arg3, main_arg4, main_v0, main_v1] (by decide) (by decide) _

/-- One window's array, as a points-to of the buffer behind it. -/
theorem arr_pt (c : Dev nD) (w : Fin cfg0.W) (q : PosShare TreeShare) (f : Buf (Elt F) ((cfg0.win w).arr.view.loc (c : Thread nD τ))) :
    ((cfg0.win w).arr.view.loc (c : Thread nD τ) ↦[(cfg0.win w).arr.view.set]{q} f : sProp 𝕄)
      = (((c : Thread nD τ).loc (Pipeline.arrRef spec0 w)) ↦{q} f) := by
  rw [(arr_whole0 w).set_eq_univ]

/-- Each window's share of its array: the two windows on one array hold its two halves. -/
theorem share_0 (c : Dev nD) : (dats m 0 c).share 0 = fullShare := by unfold Dat.share; split <;> rfl
theorem share_1 (c : Dev nD) : (dats m 0 c).share 1 = fullShare.left := by unfold Dat.share; split <;> first | rfl | (rename_i h; exact absurd h (by decide))
theorem share_2 (c : Dev nD) : (dats m 0 c).share 2 = fullShare.right := by unfold Dat.share; split <;> first | rfl | (rename_i h; exact absurd h (by decide))
theorem share_3 (c : Dev nD) : (dats m 0 c).share 3 = fullShare.left := by unfold Dat.share; split <;> first | rfl | (rename_i h; exact absurd h (by decide))
theorem share_4 (c : Dev nD) : (dats m 0 c).share 4 = fullShare.right := by unfold Dat.share; split <;> first | rfl | (rename_i h; exact absurd h (by decide))
theorem share_5 (c : Dev nD) : (dats m 0 c).share 5 = fullShare := by unfold Dat.share; split <;> rfl
theorem share_6 (c : Dev nD) : (dats m 0 c).share 6 = fullShare := by unfold Dat.share; split <;> rfl
theorem share_7 (c : Dev nD) : (dats m 0 c).share 7 = fullShare := by unfold Dat.share; split <;> rfl

/-- The pipeline's arrays at contents `G`, window by window at its share. -/
theorem arrays0_eq (c : Dev nD) (G : (w : Fin cfg0.W) → Buf (Elt F) ((cfg0.win w).arr.view.loc (c : Thread nD τ))) :
    ((dats m 0 c).arrays G : sProp 𝕄)
      = iprop((((c : Thread nD τ).loc main_v0) ↦{fullShare} G 0) ∗ (((c : Thread nD τ).loc main_arg1) ↦{fullShare.left} G 1)
          ∗ (((c : Thread nD τ).loc main_arg1) ↦{fullShare.right} G 2) ∗ (((c : Thread nD τ).loc main_arg2) ↦{fullShare.left} G 3)
          ∗ (((c : Thread nD τ).loc main_arg2) ↦{fullShare.right} G 4) ∗ (((c : Thread nD τ).loc main_arg3) ↦{fullShare} G 5)
          ∗ (((c : Thread nD τ).loc main_arg4) ↦{fullShare} G 6) ∗ (((c : Thread nD τ).loc main_v1) ↦{fullShare} G 7)) := by
  have h : ((dats m 0 c).arrays G : sProp 𝕄)
      = bigSep Finset.univ fun w : Fin cfg0.W => (((c : Thread nD τ).loc (Pipeline.arrRef spec0 w)) ↦{(dats m 0 c).share w} G w : sProp 𝕄) := by
    unfold Dat.arrays; exact bigSep_congr fun w _ => arr_pt c w _ _
  rw [h, bigSep_W0, share_0 m c, share_1 m c, share_2 m c, share_3 m c, share_4 m c, share_5 m c, share_6 m c, share_7 m c]

/-! ## The segments of the program -/

abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers: the core owing nothing. -/
abbrev R (c : Dev nD) : sProp 𝕄 := iprop(∃ W, owes (c : Thread nD τ) (0 : CellTallies nD τ sig Unit) W)

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- The reshape before the region writes only its own result: every other buffer reaches the region as launched. -/
theorem V_of_ne (c : Dev nD) (b : Ref sig .tc) (hb : b ≠ main_v0) : V m c b = m ((c : Thread nD τ).loc b) :=
  StableHlo.after_of_forall_not_mem (b := Proc.devRef .tc b) hostOps0 (V₀ m c) (by
    intro op hop
    obtain rfl := List.mem_singleton.mp hop
    simp only [StableHlo.reshape_writes, Finset.mem_singleton]
    exact StableHlo.devRef_ne_of_ne hb)

/-- THE FIRST HOST SEGMENT: the reshape of the first argument, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hostOps0_fresh (V₀ m) R

/-- Core `c`'s buffers when the region is left: the result array at what the write-backs left, the rest as entered. -/
abbrev V1 (c : Dev nD) : Valuation τ sig (Elt F) :=
  Function.update (V0 m c) (Proc.devRef .tc main_v1) ((dats m 0 c).arrAt 7 cfg0.N)

/-- The two buffers the last reshape touches. -/
abbrev S1 : Finset (DevRef τ sig) := {Proc.devRef .tc main_v1, Proc.devRef .tc main_v2}

/-- The input windows' arrays after the region, each at its share, -/
abbrev inputsAt (c : Dev nD) : sProp 𝕄 :=
  iprop((((c : Thread nD τ).loc main_v0) ↦{fullShare} (dats m 0 c).arrAt 0 cfg0.N) ∗ (((c : Thread nD τ).loc main_arg1) ↦{fullShare.left} (dats m 0 c).arrAt 1 cfg0.N)
    ∗ (((c : Thread nD τ).loc main_arg1) ↦{fullShare.right} (dats m 0 c).arrAt 2 cfg0.N) ∗ (((c : Thread nD τ).loc main_arg2) ↦{fullShare.left} (dats m 0 c).arrAt 3 cfg0.N)
    ∗ (((c : Thread nD τ).loc main_arg2) ↦{fullShare.right} (dats m 0 c).arrAt 4 cfg0.N) ∗ (((c : Thread nD τ).loc main_arg3) ↦{fullShare} (dats m 0 c).arrAt 5 cfg0.N)
    ∗ (((c : Thread nD τ).loc main_arg4) ↦{fullShare} (dats m 0 c).arrAt 6 cfg0.N))
/-- and with them the first argument, which no window stages, and the core owing nothing: what rides through the last reshape. -/
abbrev R1 (c : Dev nD) : sProp 𝕄 :=
  iprop(inputsAt m c ∗ (((c : Thread nD τ).loc main_arg0) ↦{fullShare} V m c main_arg0) ∗ R c)

/-- THE LAST HOST SEGMENT: the reshape of the result, over the two buffers it touches. -/
def seg1 : Pipeline.HostSeg (Name := ℕ) (U := UR sig nD τ) (pcfgs (F := F)) defs₀ 𝒱₀ L lv :=
  Pipeline.HostSeg.ofOps _ _ _ _ _ S1 hostOps1
    (fun op h => by obtain rfl := List.mem_singleton.mp h; exact Finset.Subset.refl _) hostOps1_fresh (V1 m) (R1 m)

/-- The two buffers of the last reshape, held one by one. -/
theorem held_S1 (c : Dev nD) (W : Valuation τ sig (Elt F)) :
    (StableHlo.held (c : Thread nD τ) S1 W : sProp 𝕄)
      = iprop((((c : Thread nD τ).loc main_v1) ↦{fullShare} W (Proc.devRef .tc main_v1)) ∗ (((c : Thread nD τ).loc main_v2) ↦{fullShare} W (Proc.devRef .tc main_v2))) := by
  unfold StableHlo.held
  rw [BI.bigSep_insert (by decide), BI.bigSep_singleton]
  rfl

/-! ## The region -/

set_option backward.isDefEq.respectTransparency.types false in
/-- THE REGION: the layout (windows may share an array), no semaphore of the kernel's own, the body obligation;
    entered from what the first reshape left — each array into the pipeline at its windows' shares, the scratch into
    the invariant, the first argument and the final result's buffer bypassing —, left with the result array at what the
    write-backs made of it. -/
def reg0 (hbody : ∀ c, BodyObligation (dats m 0 c) (defs₀ (F := F)) 𝒱₀ () Set.univ) :
    Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (hbody c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) S1 (V1 m c) ∗ R1 m c)
  X c := iprop(emp)
  Y c := iprop(emp)
  Z c := iprop((((c : Thread nD τ).loc main_arg0) ↦{fullShare} V m c main_arg0) ∗ (((c : Thread nD τ).loc main_v2) ↦{fullShare} V m c main_v2))
  hentry c := by
    rw [show StableHlo.held (c : Thread nD τ) (Pipeline.ucRefs τ sig) (V0 m c) = unscopedBufs c (V m c) from (Pipeline.unscopedBufs_held c _).symm,
      Pipeline.unscopedBufs_split₀ cfgs 0 winFacts₀0.arr_unscoped c (V m c), arrBufs0_eq, unscopedRest0_eq, arrays0_eq]
    iintro ⟨⟨⟨⟨H1, H2, H3, H4, Hv0, Hv1⟩, Ha0, Hv2⟩, HO⟩, -, -⟩
    ihave H1' := (pointsTo_share (PosShare.mem_left_op_right fullShare)).1 $$ H1
    icases H1' with ⟨H1l, H1r⟩
    ihave H2' := (pointsTo_share (PosShare.mem_left_op_right fullShare)).1 $$ H2
    icases H2' with ⟨H2l, H2r⟩
    imodintro
    isplitl [Hv0 H1l H1r H2l H2r H3 H4 Hv1]
    · isplitl [Hv0]; · iexact Hv0
      isplitl [H1l]; · iexact H1l
      isplitl [H1r]; · iexact H1r
      isplitl [H2l]; · iexact H2l
      isplitl [H2r]; · iexact H2r
      isplitl [H3]; · iexact H3
      isplitl [H4]; · iexact H4
      iexact Hv1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Ha0]; · iexact Ha0
    iexact Hv2
  hin c := by
    rw [show (dats m 0 c).Φ 0 = iprop(∃ d, owns (c : Thread nD τ) scM fullShare d) from rfl, scopedRest0_eq]
    simp only [scM, owns_whole]
    iintro ⟨-, -, Hr⟩; iexact Hr
  hout c := by
    rw [Pipeline.ownSems0_none, scopedRest0_eq,
      show (dats m 0 c).Φ (Fin.last cfg0.N) = PhiS m c cfg0.N (le_refl _) from rfl,
      PhiS_pos m c _ _ (by rw [show cfg0.N = 1024 from N_0]; decide)]
    simp only [scM, owns_whole]
    iintro H
    isplitr; · iempintro
    isplitr; · iempintro
    iexists _; iexact H
  hexit c := by
    rw [arrays0_eq]
    iintro ⟨⟨Hv0, H1l, H1r, H2l, H2r, H3, H4, Hv1⟩, HO, -, ⟨Ha0, Hv2⟩⟩
    imodintro
    isplitl [Hv1 Hv2]
    · rw [held_S1]
      isplitl [Hv1]
      · rw [show V1 m c (Proc.devRef .tc main_v1) = (dats m 0 c).arrAt 7 cfg0.N from Function.update_self ..]
        iexact Hv1
      · rw [show V1 m c (Proc.devRef .tc main_v2) = V m c main_v2 from Function.update_of_ne (by decide) ..]
        iexact Hv2
    isplitl [Hv0 H1l H1r H2l H2r H3 H4]
    · isplitl [Hv0]; · iexact Hv0
      isplitl [H1l]; · iexact H1l
      isplitl [H1r]; · iexact H1r
      isplitl [H2l]; · iexact H2l
      isplitl [H2r]; · iexact H2r
      isplitl [H3]; · iexact H3
      iexact H4
    isplitl [Ha0]; · iexact Ha0
    unfold Pipeline.Dat.owesAt Pipeline.owesWithin
    icases HO with ⟨%W, -, HO⟩; iexists W; iexact HO

/-! ## The run -/

/-- @main as the list of its three segments. -/
abbrev segs (hbody : ∀ c, BodyObligation (dats m 0 c) (defs₀ (F := F)) 𝒱₀ () Set.univ) :
    List (Pipeline.Seg (pcfgs (F := F)) adm (dats m) () defs₀ 𝒱₀ L lv) :=
  [.host (seg0 m), .region (reg0 m hbody), .host (seg1 m)]

/-- What the final result's buffer holds at the end: the last reshape of the result array as the region left it. -/
abbrev outArr (c : Dev nD) : Buf (Elt F) ((c : Thread nD τ).loc main_v2) :=
  StableHlo.after hostOps1 (V1 m c) (Proc.devRef .tc main_v2)

set_option backward.isDefEq.respectTransparency.types false in
/-- At the compiled mesh, for any float values, from any memory with zero counters: every weakly fair execution of
    @main on the TensorCores terminates, the final result's buffer holds the reshape of the result array as the region's
    write-backs left it, and the five arguments are as launched. -/
theorem run_main (hbody : ∀ c, BodyObligation (dats m 0 c) (defs₀ (F := F)) 𝒱₀ () Set.univ) :
    θ_run defs (onTc (τ := τ) (main (F := F))) ⟨m, fun _ => 0, ρ⟩ (fun r => ∀ c : Dev nD,
      r.2.mem ((c : Thread nD τ).loc main_v2) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  Pipeline.θ_run_regions_kit (pcfgs (F := F)) adm (dats m) () cellOf_inj EP defs₀ 𝒱₀ L lv m ρ main (segs m hbody)
    (fun c Q => by rw [main_segs adm (dats m) () 𝒱₀ L lv (seg0 m) (seg1 m) (reg0 m hbody) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu
      imodintro
      isplitl [Hu]
      · iapply (show (ownU _ : sProp 𝕄) ⊢ BI.own (EP (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => iprop(StableHlo.held (c : Thread nD τ) S1 (StableHlo.after hostOps1 (V1 m c)) ∗ inputsAt m c
      ∗ (((c : Thread nD τ).loc main_arg0) ↦{fullShare} V m c main_arg0)))
    (hch := ⟨fun _ => .rfl, fun _ => .rfl, fun _ => .rfl, fun c => by
      refine (show iprop(StableHlo.held (c : Thread nD τ) S1 (StableHlo.after hostOps1 (V1 m c)) ∗ R1 m c) ⊢ _ from ?_)
      iintro ⟨Hh, Hi, Ha, HR⟩
      isplitr [HR]
      · isplitl [Hh]; · iexact Hh
        isplitl [Hi] <;> iassumption
      · iexact HR⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v2) = outArr m c
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4))
    (hfin := fun c s' => by
      rw [held_S1]
      iintro ⟨⟨⟨Hv1, Hv2⟩, ⟨Hv0, H1l, H1r, H2l, H2r, H3, H4⟩, Ha0⟩, HSI⟩
      icombine HSI Hv2 gives %h2
      icombine HSI Ha0 gives %h0
      icombine HSI H1l gives %h1
      icombine HSI H2l gives %h2'
      icombine HSI H3 gives %h3
      icombine HSI H4 gives %h4
      imodintro
      isplitr; swap; (· iexact HSI)
      ipureintro
      exact ⟨Buf.eq_of_forall_mem_univ h2,
        (Buf.eq_of_forall_mem_univ h0).trans (V_of_ne m c main_arg0 (by decide)),
        (Buf.eq_of_forall_mem_univ h1).trans (((dats m 0 c).arrAt_in 1 rfl _).trans ((A_eq m c 1).trans (V_of_ne m c main_arg1 (by decide)))),
        (Buf.eq_of_forall_mem_univ h2').trans (((dats m 0 c).arrAt_in 3 rfl _).trans ((A_eq m c 3).trans (V_of_ne m c main_arg2 (by decide)))),
        (Buf.eq_of_forall_mem_univ h3).trans (((dats m 0 c).arrAt_in 5 rfl _).trans ((A_eq m c 5).trans (V_of_ne m c main_arg3 (by decide)))),
        (Buf.eq_of_forall_mem_univ h4).trans (((dats m 0 c).arrAt_in 6 rfl _).trans ((A_eq m c 6).trans (V_of_ne m c main_arg4 (by decide))))⟩)
    (hQ := fun _ h => h)

/-- The last reshape read back: the final result is the result array at the final shape. -/
theorem outArr_eq (c : Dev nD) :
    outArr m c = fun i => shapeCast S4x2048x3072 ((dats m 0 c).arrAt 7 cfg0.N) shapeCasts_S8192x3072_S4x2048x3072 i := by
  show (StableHlo.reshape main_v1 main_v2 rfl shapeCasts_S8192x3072_S4x2048x3072 : HloOp τ sig (Elt F)).result (V1 m c) (Proc.devRef .tc main_v2) = _
  rw [StableHlo.reshape_result]
  rw [show V1 m c (Proc.devRef .tc main_v1) = (dats m 0 c).arrAt 7 cfg0.N from Function.update_self ..]
  rfl

end Cert.KernelIdeal.Hand

end
-- ==== Proof.Spec.lean ====
/-
  The function both programs compute, index by index over the extended reals.

  With x : [4, 2048, 3072], integer weights w1 : [16384, 3072] and w2 : [3072, 8192] read as the integers they
  spell, and per-row scales s1 : [16384], s2 : [3072]:
    proj b s j   = (Σ_h x[b,s,h] · w1[j,h]) · s1[j]                       (one dequantised projection)
    hid  b s j   = (g · logistic g) · u,  g = proj b s j,  u = proj b s (j + 8192)   (the gated unit, j < 8192)
    G    b s o   = (Σ_j hid b s j · w2[o,j]) · s2[o]                      (the down projection)
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨3, ![4, 2048, 3072]⟩
abbrev SW1 : Shape := ⟨2, ![16384, 3072]⟩
abbrev SS1 : Shape := ⟨1, ![16384]⟩
abbrev SW2 : Shape := ⟨2, ![3072, 8192]⟩
abbrev SS2 : Shape := ⟨1, ![3072]⟩

/-- An integer weight as the extended real it spells (read signed). -/
def wt (b : BitVec 32) : EReal := ((b.toInt : ℝ) : EReal)

/-- Row `(b, s)` of `x` against row `j` of `w1`, scaled by `s1 j`. -/
def proj (x : SX.Idx → EReal) (w1 : SW1.Idx → BitVec 32) (s1 : SS1.Idx → EReal)
    (b : Fin 4) (s : Fin 2048) (j : Fin 16384) : EReal :=
  (∑ h : Fin 3072, x (ix3 b s h) * wt (w1 (ix2 j h))) * s1 (ix1 j)

/-- The gated hidden unit `j`: rows `j` (gate) and `j + 8192` (up) of the first projection. -/
def hid (x : SX.Idx → EReal) (w1 : SW1.Idx → BitVec 32) (s1 : SS1.Idx → EReal)
    (b : Fin 4) (s : Fin 2048) (j : Fin 8192) : EReal :=
  (proj x w1 s1 b s ⟨j.val, by omega⟩ * Ideal.logistic (proj x w1 s1 b s ⟨j.val, by omega⟩))
    * proj x w1 s1 b s ⟨j.val + 8192, by omega⟩

/-- The result: the hidden units against row `o` of `w2`, scaled by `s2 o`. -/
def G (x : SX.Idx → EReal) (w1 : SW1.Idx → BitVec 32) (s1 : SS1.Idx → EReal)
    (w2 : SW2.Idx → BitVec 32) (s2 : SS2.Idx → EReal) : SX.Idx → EReal := fun i =>
  (∑ j : Fin 8192, hid x w1 s1 (i 0) (i 1) j * wt (w2 (ix2 (i 2) j))) * s2 (ix1 (i 2))

end Cert.Spec

end
-- ==== Proof.RefSide.lean ====
/-
  The reference program computes the common specification `Cert.Spec.G`.

  Its result is read index by index: the outer product with the broadcast scale, the contraction over the 8192
  hidden units, each hidden unit the gated product of two rows of the first dequantised projection, and the
  reference's spelling `g · (1 / (1 + exp (−g)))` of the gate, which is `g · logistic g` by the definition of
  the logistic function.
-/
import proofs.«124556_j48241072668862_1_alg».proof.Proof.Gen.ReferenceIdeal.Run
import proofs.«124556_j48241072668862_1_alg».proof.Proof.Gen.ReferenceIdeal.Read
import proofs.«124556_j48241072668862_1_alg».proof.Proof.Spec

noncomputable section

open scoped BigOperators

namespace Cert.RefSide

open Cert.ReferenceIdeal Cert.ReferenceIdeal.Read Idealize.ShloMosaic Idealize.ShloMosaic.ValueIdx
open Idealize.ShloMosaic.TcCoe Idealize.SL.Sem

/-! ## The literal -/

/-- The pattern `0x3F800000` is the number one: sign 0, exponent field 127, fraction 0. -/
theorem one_bits : Ideal.ofBits .f32 0x3F800000#32 = 1 := by
  simp [Ideal.ofBits, Ideal.ieee, -EReal.coe_mul]; norm_num

/-! ## The index functions at an index given by its coordinates -/

theorem lidx_v1 (b : Fin 4) (s : Fin 2048) (j : Fin 16384) (k : Fin 3072) :
    lidx_main_v1 (ix3 b s j) k = ix3 b s k := by
  funext a; match a with | ⟨0, _⟩ => rfl | ⟨1, _⟩ => rfl | ⟨2, _⟩ => rfl

theorem ridx_v1 (b : Fin 4) (s : Fin 2048) (j : Fin 16384) (k : Fin 3072) :
    ridx_main_v1 (ix3 b s j) k = ix2 j k := by
  funext a; match a with | ⟨0, _⟩ => rfl | ⟨1, _⟩ => rfl

theorem idx_v2_v3 (b : Fin 4) (s : Fin 2048) (j : Fin 16384) :
    idx_main_v2 (idx_main_v3 (ix3 b s j)) = ix1 j := by
  funext a; match a with | ⟨0, _⟩ => rfl

theorem idx_v5 (b : Fin 4) (s : Fin 2048) (j : Fin 8192) :
    idx_main_v5 (ix3 b s j) = ix3 b s (⟨j.val, by omega⟩ : Fin 16384) := by
  funext a; match a with | ⟨0, _⟩ => rfl | ⟨1, _⟩ => rfl | ⟨2, _⟩ => rfl

theorem idx_v6 (b : Fin 4) (s : Fin 2048) (j : Fin 8192) :
    idx_main_v6 (ix3 b s j) = ix3 b s (⟨j.val + 8192, by omega⟩ : Fin 16384) := by
  funext a
  match a with
  | ⟨0, _⟩ => rfl
  | ⟨1, _⟩ => rfl
  | ⟨2, _⟩ => exact Fin.ext (Nat.add_comm 8192 j.val)

theorem lidx_v10 (b : Fin 4) (s : Fin 2048) (o : Fin 3072) (k : Fin 8192) :
    lidx_main_v10 (ix3 b s o) k = ix3 b s k := by
  funext a; match a with | ⟨0, _⟩ => rfl | ⟨1, _⟩ => rfl | ⟨2, _⟩ => rfl

theorem ridx_v10 (b : Fin 4) (s : Fin 2048) (o : Fin 3072) (k : Fin 8192) :
    ridx_main_v10 (ix3 b s o) k = ix2 o k := by
  funext a; match a with | ⟨0, _⟩ => rfl | ⟨1, _⟩ => rfl

theorem idx_v11_v12 (b : Fin 4) (s : Fin 2048) (o : Fin 3072) :
    idx_main_v11 (idx_main_v12 (ix3 b s o)) = ix1 o := by
  funext a; match a with | ⟨0, _⟩ => rfl

/-! ## The stages at an index -/

variable (x : (⟨S4x2048x3072, .f32⟩ : BufTy).Contents (Elt Ideal))
  (w1 : (⟨S16384x3072, .i32⟩ : BufTy).Contents (Elt Ideal))
  (s1 : (⟨S16384, .f32⟩ : BufTy).Contents (Elt Ideal))
  (w2 : (⟨S3072x8192, .i32⟩ : BufTy).Contents (Elt Ideal))
  (s2 : (⟨S3072, .f32⟩ : BufTy).Contents (Elt Ideal))

/-- The first scaled projection, at row `j` of the 16384: `Spec.proj`. -/
theorem v4_at (b : Fin 4) (s : Fin 2048) (j : Fin 16384) :
    val_main_v4 (F := Ideal) x w1 s1 (ix3 b s j) = Cert.Spec.proj x w1 s1 b s j := by
  rw [val_main_v4_apply, val_main_v1_apply, val_main_v3_apply, val_main_v2_apply, idx_v2_v3]
  unfold Cert.Spec.proj
  rw [Ideal.mulf_def]
  congr 1
  refine Finset.sum_congr rfl fun k _ => ?_
  rw [lidx_v1, ridx_v1, val_main_v0_apply]
  rfl

/-- The reference's gate factor `1 / (1 + exp (−g))` is the logistic function of `g`. -/
theorem gate_at (i : S4x2048x8192.Idx) :
    val_main_call0_v5 (F := Ideal) x w1 s1 i = Ideal.logistic (val_main_v5 (F := Ideal) x w1 s1 i) := by
  rw [val_main_call0_v5_apply, val_main_call0_v4_apply, val_main_call0_cst_0_apply, val_main_call0_v3_apply,
    val_main_call0_v2_apply, val_main_call0_cst_apply, val_main_call0_v1_apply, val_main_call0_v0_apply,
    Ideal.hostDivf_def, Ideal.addf_def, Ideal.hostUnary_exp_def, Ideal.hostNegf_def, Ideal.negf_def,
    Ideal.ofBits_def, one_bits]
  rfl

/-- The gated hidden unit `j`: `Spec.hid`. -/
theorem v8_at (b : Fin 4) (s : Fin 2048) (j : Fin 8192) :
    val_main_v8 (F := Ideal) x w1 s1 (ix3 b s j) = Cert.Spec.hid x w1 s1 b s j := by
  rw [val_main_v8_apply, val_main_v7_apply, gate_at, val_main_v5_apply, val_main_v6_apply, idx_v5, idx_v6,
    v4_at, v4_at, Ideal.mulf_def, Ideal.mulf_def]
  rfl

/-- The reference's result at an index is the specification's. -/
theorem v13_at (b : Fin 4) (s : Fin 2048) (o : Fin 3072) :
    val_main_v13 (F := Ideal) x w1 s1 w2 s2 (ix3 b s o) = Cert.Spec.G x w1 s1 w2 s2 (ix3 b s o) := by
  rw [val_main_v13_apply, val_main_v10_apply, val_main_v12_apply, val_main_v11_apply, idx_v11_v12]
  unfold Cert.Spec.G
  rw [Ideal.mulf_def]
  congr 1
  refine Finset.sum_congr rfl fun k _ => ?_
  rw [lidx_v10, ridx_v10, v8_at, val_main_v9_apply]
  rfl

/-- The reference's result is the specification. -/
theorem v13_eq_G : val_main_v13 (F := Ideal) x w1 s1 w2 s2 = Cert.Spec.G x w1 s1 w2 s2 := by
  funext i
  rw [eq_ix3 i]
  exact v13_at x w1 s1 w2 s2 (i 0) (i 1) (i 2)

/-! ## The run -/

/-- Every weakly fair execution of the reference terminates with its result buffer at the specification of the
    five argument arrays' launch contents, the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread Cert.ReferenceIdeal.nD Cert.ReferenceIdeal.τ).loc Cert.ReferenceIdeal.main_v13)
          = Cert.Spec.G (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3)
          = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4)
          = m ((c.tc : Thread Cert.ReferenceIdeal.nD Cert.ReferenceIdeal.τ).loc Cert.ReferenceIdeal.main_arg4)) :=
  (θ_run (Cert.ReferenceIdeal.defs (F := Ideal)) _ _).mono
    (fun _ h c => ⟨(h c).1.trans ((val_main_v13_eq _ _ _ _ _).trans (v13_eq_G _ _ _ _ _)), (h c).2⟩)
    (Cert.ReferenceIdeal.Value.run (F := Ideal) m ρ)

end Cert.RefSide

end
-- ==== Proof.BlocksI.lean ====
/-
  The staged blocks, read off the argument arrays.

  At grid point t = 64·i + k the eight windows stage: rows 512·i … of the row-flattened x (row ρ of the flattened
  array is (ρ / 2048, ρ % 2048) of the argument); rows 128·k … and 128·(k + 64) … of the first weight array with
  the matching ranges of its scale vector; columns 128·k … of the second weight array; the whole second scale vector.
  A block's coordinate in its array is always (block index) × (block size) + (coordinate inside the block).
-/
import proofs.«124556_j48241072668862_1_alg».proof.Proof.CommonI
import Idealize.ShloMosaic.Lib.Pipeline.Value
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-! ## The arrays as the region finds them -/

/-- The one reshape before the region writes only the flattened copy of x: the four other arguments are as launched, -/
theorem V_arg1 (c : Dev nD) : V m c main_arg1 = m ((c : Thread nD τ).loc main_arg1) := by
  show StableHlo.after hostOps0 (fun b => m (c, b)) (Proc.devRef .tc main_arg1) = _
  after_results
theorem V_arg2 (c : Dev nD) : V m c main_arg2 = m ((c : Thread nD τ).loc main_arg2) := by
  show StableHlo.after hostOps0 (fun b => m (c, b)) (Proc.devRef .tc main_arg2) = _
  after_results
theorem V_arg3 (c : Dev nD) : V m c main_arg3 = m ((c : Thread nD τ).loc main_arg3) := by
  show StableHlo.after hostOps0 (fun b => m (c, b)) (Proc.devRef .tc main_arg3) = _
  after_results
theorem V_arg4 (c : Dev nD) : V m c main_arg4 = m ((c : Thread nD τ).loc main_arg4) := by
  show StableHlo.after hostOps0 (fun b => m (c, b)) (Proc.devRef .tc main_arg4) = _
  after_results
/-- and the flattened copy is the reshape of x. -/
theorem V_v0 (c : Dev nD) : (V m c main_v0 : S8192x3072.Idx → EReal)
    = shapeCast S8192x3072 (m ((c : Thread nD τ).loc main_arg0)) shapeCasts_S4x2048x3072_S8192x3072 := by
  show StableHlo.after hostOps0 (fun b => m (c, b)) (Proc.devRef .tc main_v0) = _
  after_results
  rfl

/-! ## The two reshapes at an index -/

/-- Row ρ = 2048·b + s of the flattened array is row (b, s) of the argument. -/
theorem reshape_in (x : S4x2048x3072.Idx → EReal) (ρ : Fin 8192) (h : Fin 3072) (b : Fin 4) (s : Fin 2048)
    (hρ : ρ.val = 2048 * b.val + s.val) :
    shapeCast S8192x3072 x shapeCasts_S4x2048x3072_S8192x3072 (ix2 ρ h) = x (ix3 b s h) := by
  refine shapeCast_apply x shapeCasts_S4x2048x3072_S8192x3072 (ix2 ρ h) (ix3 b s h) ?_
  rw [Shape.rowMajor_val_two, Shape.rowMajor_val_three]
  show (b.val * 2048 + s.val) * 3072 + h.val = ρ.val * 3072 + h.val
  rw [hρ]; omega

/-- Entry (b, s, o) of the reshaped result is row 2048·b + s, column o of the flat result. -/
theorem reshape_out (y : S8192x3072.Idx → EReal) (b : Fin 4) (s : Fin 2048) (o : Fin 3072) (ρ : Fin 8192)
    (hρ : ρ.val = 2048 * b.val + s.val) :
    shapeCast S4x2048x3072 y shapeCasts_S8192x3072_S4x2048x3072 (ix3 b s o) = y (ix2 ρ o) := by
  refine shapeCast_apply y shapeCasts_S8192x3072_S4x2048x3072 (ix3 b s o) (ix2 ρ o) ?_
  rw [Shape.rowMajor_val_two, Shape.rowMajor_val_three]
  show ρ.val * 3072 + o.val = (b.val * 2048 + s.val) * 3072 + o.val
  rw [hρ]; omega

/-! ## The block indices over the grid -/

theorem bidx0 : ∀ t : Fin cfg0.N, win0_0.index t 0 = t.val / 64 ∧ win0_0.index t 1 = 0 :=
  (by decide +kernel : ∀ t : Fin grid0.N, win0_0.index t 0 = t.val / 64 ∧ win0_0.index t 1 = 0)
theorem bidx1 : ∀ t : Fin cfg0.N, win0_1.index t 0 = t.val % 64 ∧ win0_1.index t 1 = 0 :=
  (by decide +kernel : ∀ t : Fin grid0.N, win0_1.index t 0 = t.val % 64 ∧ win0_1.index t 1 = 0)
theorem bidx2 : ∀ t : Fin cfg0.N, win0_2.index t 0 = t.val % 64 + 64 ∧ win0_2.index t 1 = 0 :=
  (by decide +kernel : ∀ t : Fin grid0.N, win0_2.index t 0 = t.val % 64 + 64 ∧ win0_2.index t 1 = 0)
theorem bidx3 : ∀ t : Fin cfg0.N, win0_3.index t 0 = t.val % 64 :=
  (by decide +kernel : ∀ t : Fin grid0.N, win0_3.index t 0 = t.val % 64)
theorem bidx4 : ∀ t : Fin cfg0.N, win0_4.index t 0 = t.val % 64 + 64 :=
  (by decide +kernel : ∀ t : Fin grid0.N, win0_4.index t 0 = t.val % 64 + 64)
theorem bidx5 : ∀ t : Fin cfg0.N, win0_5.index t 0 = 0 ∧ win0_5.index t 1 = t.val % 64 :=
  (by decide +kernel : ∀ t : Fin grid0.N, win0_5.index t 0 = 0 ∧ win0_5.index t 1 = t.val % 64)
theorem bidx6 : ∀ t : Fin cfg0.N, win0_6.index t 0 = 0 :=
  (by decide +kernel : ∀ t : Fin grid0.N, win0_6.index t 0 = 0)
theorem bidx7 : ∀ t : Fin cfg0.N, win0_7.index t 0 = t.val / 64 ∧ win0_7.index t 1 = 0 :=
  (by decide +kernel : ∀ t : Fin grid0.N, win0_7.index t 0 = t.val / 64 ∧ win0_7.index t 1 = 0)

/-! ## The blocks, named at their literal types -/

abbrev xblk (c : Dev nD) (t : Fin cfg0.N) : Vec Ideal S512x3072 .f32 := iblk m c 0 t
abbrev gwblk (c : Dev nD) (t : Fin cfg0.N) : Vec Ideal S128x3072 .i32 := iblk m c 1 t
abbrev uwblk (c : Dev nD) (t : Fin cfg0.N) : Vec Ideal S128x3072 .i32 := iblk m c 2 t
abbrev gsblk (c : Dev nD) (t : Fin cfg0.N) : Vec Ideal S128 .f32 := iblk m c 3 t
abbrev usblk (c : Dev nD) (t : Fin cfg0.N) : Vec Ideal S128 .f32 := iblk m c 4 t
abbrev dwblk (c : Dev nD) (t : Fin cfg0.N) : Vec Ideal S3072x128 .i32 := iblk m c 5 t
abbrev dsblk (c : Dev nD) (t : Fin cfg0.N) : Vec Ideal S3072 .f32 := iblk m c 6 t

/-! ## Each block at an index -/

/-- The x block: row r is row 512·(t / 64) + r of the flattened x, which is row (b, s) of x. -/
theorem xblk_apply (c : Dev nD) (t : Fin cfg0.N) (r : Fin 512) (h : Fin 3072) (b : Fin 4) (s : Fin 2048)
    (hρ : 512 * (t.val / 64) + r.val = 2048 * b.val + s.val) :
    xblk m c t (ix2 r h) = m ((c : Thread nD τ).loc main_arg0) (ix3 b s h) := by
  have hb : 2048 * b.val + s.val < 8192 := by have := b.isLt; have := s.isLt; omega
  refine Eq.trans ?_ (reshape_in (m ((c : Thread nD τ).loc main_arg0)) ⟨2048 * b.val + s.val, hb⟩ h b s rfl)
  unfold xblk iblk
  rw [View.read_apply]
  show V m c main_v0 _ = _
  rw [V_v0]
  congr 1
  funext a
  apply Fin.ext
  obtain ⟨e0, e1⟩ := bidx0 t
  match a with
  | ⟨0, _⟩ => show win0_0.index t 0 * 512 + 1 * r.val = 2048 * b.val + s.val; rw [e0]; omega
  | ⟨1, _⟩ => show win0_0.index t 1 * 3072 + 1 * h.val = h.val; rw [e1]; omega

/-- The gate weight block: row jj is row 128·(t % 64) + jj of the first weight array. -/
theorem gwblk_apply (c : Dev nD) (t : Fin cfg0.N) (jj : Fin 128) (h : Fin 3072) (j : Fin 16384)
    (hj : j.val = 128 * (t.val % 64) + jj.val) :
    gwblk m c t (ix2 jj h) = m ((c : Thread nD τ).loc main_arg1) (ix2 j h) := by
  unfold gwblk iblk
  rw [View.read_apply]
  show V m c main_arg1 _ = _
  rw [V_arg1]
  congr 1
  funext a
  apply Fin.ext
  obtain ⟨e0, e1⟩ := bidx1 t
  match a with
  | ⟨0, _⟩ => show win0_1.index t 0 * 128 + 1 * jj.val = j.val; rw [e0, hj]; omega
  | ⟨1, _⟩ => show win0_1.index t 1 * 3072 + 1 * h.val = h.val; rw [e1]; omega

/-- The up weight block: row jj is row 128·(t % 64 + 64) + jj of the first weight array. -/
theorem uwblk_apply (c : Dev nD) (t : Fin cfg0.N) (jj : Fin 128) (h : Fin 3072) (j : Fin 16384)
    (hj : j.val = 128 * (t.val % 64) + jj.val + 8192) :
    uwblk m c t (ix2 jj h) = m ((c : Thread nD τ).loc main_arg1) (ix2 j h) := by
  unfold uwblk iblk
  rw [View.read_apply]
  show V m c main_arg1 _ = _
  rw [V_arg1]
  congr 1
  funext a
  apply Fin.ext
  obtain ⟨e0, e1⟩ := bidx2 t
  match a with
  | ⟨0, _⟩ => show win0_2.index t 0 * 128 + 1 * jj.val = j.val; rw [e0, hj]; omega
  | ⟨1, _⟩ => show win0_2.index t 1 * 3072 + 1 * h.val = h.val; rw [e1]; omega

/-- The gate scale block: entry jj is entry 128·(t % 64) + jj of the first scale vector. -/
theorem gsblk_apply (c : Dev nD) (t : Fin cfg0.N) (jj : Fin 128) (j : Fin 16384)
    (hj : j.val = 128 * (t.val % 64) + jj.val) :
    gsblk m c t (ix1 jj) = m ((c : Thread nD τ).loc main_arg2) (ix1 j) := by
  unfold gsblk iblk
  rw [View.read_apply]
  show V m c main_arg2 _ = _
  rw [V_arg2]
  congr 1
  funext a
  apply Fin.ext
  have e0 := bidx3 t
  match a with
  | ⟨0, _⟩ => show win0_3.index t 0 * 128 + 1 * jj.val = j.val; rw [e0, hj]; omega

/-- The up scale block: entry jj is entry 128·(t % 64 + 64) + jj of the first scale vector. -/
theorem usblk_apply (c : Dev nD) (t : Fin cfg0.N) (jj : Fin 128) (j : Fin 16384)
    (hj : j.val = 128 * (t.val % 64) + jj.val + 8192) :
    usblk m c t (ix1 jj) = m ((c : Thread nD τ).loc main_arg2) (ix1 j) := by
  unfold usblk iblk
  rw [View.read_apply]
  show V m c main_arg2 _ = _
  rw [V_arg2]
  congr 1
  funext a
  apply Fin.ext
  have e0 := bidx4 t
  match a with
  | ⟨0, _⟩ => show win0_4.index t 0 * 128 + 1 * jj.val = j.val; rw [e0, hj]; omega

/-- The down weight block: column jj is column 128·(t % 64) + jj of the second weight array. -/
theorem dwblk_apply (c : Dev nD) (t : Fin cfg0.N) (o : Fin 3072) (jj : Fin 128) (j : Fin 8192)
    (hj : j.val = 128 * (t.val % 64) + jj.val) :
    dwblk m c t (ix2 o jj) = m ((c : Thread nD τ).loc main_arg3) (ix2 o j) := by
  unfold dwblk iblk
  rw [View.read_apply]
  show V m c main_arg3 _ = _
  rw [V_arg3]
  congr 1
  funext a
  apply Fin.ext
  obtain ⟨e0, e1⟩ := bidx5 t
  match a with
  | ⟨0, _⟩ => show win0_5.index t 0 * 3072 + 1 * o.val = o.val; rw [e0]; omega
  | ⟨1, _⟩ => show win0_5.index t 1 * 128 + 1 * jj.val = j.val; rw [e1, hj]; omega

/-- The down scale block is the whole second scale vector. -/
theorem dsblk_apply (c : Dev nD) (t : Fin cfg0.N) (o : Fin 3072) :
    dsblk m c t (ix1 o) = m ((c : Thread nD τ).loc main_arg4) (ix1 o) := by
  unfold dsblk iblk
  rw [View.read_apply]
  show V m c main_arg4 _ = _
  rw [V_arg4]
  congr 1
  funext a
  apply Fin.ext
  have e0 := bidx6 t
  match a with
  | ⟨0, _⟩ => show win0_6.index t 0 * 3072 + 1 * o.val = o.val; rw [e0]; omega

end Cert.KernelIdeal.Hand

end
-- ==== Proof.PayIdeal.lean ====
/-
  The kernel body's arithmetic read at one index, over the extended reals.

  One grid point holds a row tile x : [512, 3072], two 128-row chunks gw, uw : [128, 3072] of the integer first
  projection with their scales gs, us : [128], and a 128-column chunk dw : [3072, 128] of the integer down projection.
  With  g r j = (Σ_h x[r,h] · gw[j,h]) · gs[j]  and  u r j = (Σ_h x[r,h] · uw[j,h]) · us[j]  the gated unit is
  hidBlk r j = (g · logistic g) · u,  and the accumulator update at (r, o) adds  Σ_j hidBlk r j · dw[o,j].
  The first store is the zero block and the last multiplies column o by its scale.
-/
import proofs.«124556_j48241072668862_1_alg».proof.Proof.Gen.KernelIdeal.Skeleton
import proofs.«124556_j48241072668862_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- the gated unit jj of one 128-chunk, row r of the x block -/
def hidBlk (v3 : Vec Ideal S512x3072 .f32) (v6 v9 : Vec Ideal S128x3072 .i32) (v13 v18 : Vec Ideal S128 .f32)
    (r : Fin 512) (jj : Fin 128) : EReal :=
  let g := (∑ h : Fin 3072, v3 (ix2 r h) * Cert.Spec.wt (v6 (ix2 jj h))) * v13 (ix1 jj)
  let u := (∑ h : Fin 3072, v3 (ix2 r h) * Cert.Spec.wt (v9 (ix2 jj h))) * v18 (ix1 jj)
  (g * Ideal.logistic g) * u

/-! ## A scale row laid over the rows of a block -/

/-- A 128-vector viewed as one row and repeated down 512 rows reads, at (r, jj), the vector at jj. -/
theorem rowOver128 (v : FVec Ideal S128 .f32) (r : Fin 512) (jj : Fin 128) :
    broadcastTo S512x128 (shapeCast S1x128 v shapeCasts_S128_S1x128) broadcasts_S1x128_S512x128 (ix2 r jj)
      = v (ix1 jj) :=
  (broadcastTo_1b_ab_apply _ broadcasts_S1x128_S512x128 r jj).trans
    (shapeCast_a_1a_apply v shapeCasts_S128_S1x128 0 jj)

/-- A 3072-vector viewed as one row and repeated down 512 rows reads, at (r, o), the vector at o. -/
theorem rowOver3072 (v : FVec Ideal S3072 .f32) (r : Fin 512) (o : Fin 3072) :
    broadcastTo S512x3072 (shapeCast S1x3072 v shapeCasts_S3072_S1x3072) broadcasts_S1x3072_S512x3072 (ix2 r o)
      = v (ix1 o) :=
  (broadcastTo_1b_ab_apply _ broadcasts_S1x3072_S512x3072 r o).trans
    (shapeCast_a_1a_apply v shapeCasts_S3072_S1x3072 0 o)

/-! ## The first product: rows of the x block against rows of a weight chunk -/

theorem lhs_proj_0 (i : S512x128.Idx) (q : dot_S512x3072_S128x3072_S512x128_1_1_0_0_n_n.contr.Idx) :
    (dot_S512x3072_S128x3072_S512x128_1_1_0_0_n_n.lhsIdx i q 0).val = (i 0).val := by
  unfold DotDims.lhsIdx
  rw [dif_neg (show ¬(0 : Fin S512x3072.rank) ∈ dot_S512x3072_S128x3072_S512x128_1_1_0_0_n_n.lhsBatch by decide), dif_pos (show (0 : Fin S512x3072.rank) ∈ dot_S512x3072_S128x3072_S512x128_1_1_0_0_n_n.lhsNonContracting by decide)]
  rfl
theorem lhs_proj_1 (i : S512x128.Idx) (q : dot_S512x3072_S128x3072_S512x128_1_1_0_0_n_n.contr.Idx) :
    (dot_S512x3072_S128x3072_S512x128_1_1_0_0_n_n.lhsIdx i q 1).val = (q ⟨0, by decide⟩).val :=
  dot_S512x3072_S128x3072_S512x128_1_1_0_0_n_n.lhsIdx_val_of_single rfl i q
theorem rhs_proj_0 (i : S512x128.Idx) (q : dot_S512x3072_S128x3072_S512x128_1_1_0_0_n_n.contr.Idx) :
    (dot_S512x3072_S128x3072_S512x128_1_1_0_0_n_n.rhsIdx i q 0).val = (i 1).val := by
  unfold DotDims.rhsIdx
  rw [dif_neg (show ¬(0 : Fin S128x3072.rank) ∈ dot_S512x3072_S128x3072_S512x128_1_1_0_0_n_n.rhsBatch by decide), dif_pos (show (0 : Fin S128x3072.rank) ∈ dot_S512x3072_S128x3072_S512x128_1_1_0_0_n_n.rhsNonContracting by decide)]
  rfl
theorem rhs_proj_1 (i : S512x128.Idx) (q : dot_S512x3072_S128x3072_S512x128_1_1_0_0_n_n.contr.Idx) :
    (dot_S512x3072_S128x3072_S512x128_1_1_0_0_n_n.rhsIdx i q 1).val = (q ⟨0, by decide⟩).val :=
  dot_S512x3072_S128x3072_S512x128_1_1_0_0_n_n.rhsIdx_val_of_single rfl i q

/-- The block product into the zero block, at (r, jj): row r of the left operand against row jj of the right. -/
theorem proj_apply (l : FVec Ideal S512x3072 .bf16) (w : FVec Ideal S128x3072 .bf16) (r : Fin 512) (jj : Fin 128) :
    matmul dot_S512x3072_S128x3072_S512x128_1_1_0_0_n_n none l w (constant (F := Ideal) S512x128 .f32 0x00000000#32) (ix2 r jj)
      = ∑ h : Fin 3072, l (ix2 r h) * w (ix2 jj h) := by
  refine (Ideal.matmul_constant_zero_apply dot_S512x3072_S128x3072_S512x128_1_1_0_0_n_n none l w (ix2 r jj)).trans ?_
  rw [← Equiv.sum_comp (contrEquiv1 dot_S512x3072_S128x3072_S512x128_1_1_0_0_n_n 3072 rfl rfl).symm]
  refine Finset.sum_congr rfl fun k _ => ?_
  have hk := contrEquiv1_symm_val dot_S512x3072_S128x3072_S512x128_1_1_0_0_n_n 3072 rfl rfl k
  have el : dot_S512x3072_S128x3072_S512x128_1_1_0_0_n_n.lhsIdx (ix2 r jj) ((contrEquiv1 dot_S512x3072_S128x3072_S512x128_1_1_0_0_n_n 3072 rfl rfl).symm k) = ix2 r k := funext fun a => Fin.ext (by
    match a with
    | ⟨0, _⟩ => exact lhs_proj_0 _ _
    | ⟨1, _⟩ => exact (lhs_proj_1 _ _).trans hk)
  have er : dot_S512x3072_S128x3072_S512x128_1_1_0_0_n_n.rhsIdx (ix2 r jj) ((contrEquiv1 dot_S512x3072_S128x3072_S512x128_1_1_0_0_n_n 3072 rfl rfl).symm k) = ix2 jj k := funext fun a => Fin.ext (by
    match a with
    | ⟨0, _⟩ => exact rhs_proj_0 _ _
    | ⟨1, _⟩ => exact (rhs_proj_1 _ _).trans hk)
  rw [el, er]

/-! ## The second product: rows of the hidden block against rows of the down chunk -/

theorem lhs_down_0 (i : S512x3072.Idx) (q : dot_S512x128_S3072x128_S512x3072_1_1_0_0_n_n.contr.Idx) :
    (dot_S512x128_S3072x128_S512x3072_1_1_0_0_n_n.lhsIdx i q 0).val = (i 0).val := by
  unfold DotDims.lhsIdx
  rw [dif_neg (show ¬(0 : Fin S512x128.rank) ∈ dot_S512x128_S3072x128_S512x3072_1_1_0_0_n_n.lhsBatch by decide), dif_pos (show (0 : Fin S512x128.rank) ∈ dot_S512x128_S3072x128_S512x3072_1_1_0_0_n_n.lhsNonContracting by decide)]
  rfl
theorem lhs_down_1 (i : S512x3072.Idx) (q : dot_S512x128_S3072x128_S512x3072_1_1_0_0_n_n.contr.Idx) :
    (dot_S512x128_S3072x128_S512x3072_1_1_0_0_n_n.lhsIdx i q 1).val = (q ⟨0, by decide⟩).val :=
  dot_S512x128_S3072x128_S512x3072_1_1_0_0_n_n.lhsIdx_val_of_single rfl i q
theorem rhs_down_0 (i : S512x3072.Idx) (q : dot_S512x128_S3072x128_S512x3072_1_1_0_0_n_n.contr.Idx) :
    (dot_S512x128_S3072x128_S512x3072_1_1_0_0_n_n.rhsIdx i q 0).val = (i 1).val := by
  unfold DotDims.rhsIdx
  rw [dif_neg (show ¬(0 : Fin S3072x128.rank) ∈ dot_S512x128_S3072x128_S512x3072_1_1_0_0_n_n.rhsBatch by decide), dif_pos (show (0 : Fin S3072x128.rank) ∈ dot_S512x128_S3072x128_S512x3072_1_1_0_0_n_n.rhsNonContracting by decide)]
  rfl
theorem rhs_down_1 (i : S512x3072.Idx) (q : dot_S512x128_S3072x128_S512x3072_1_1_0_0_n_n.contr.Idx) :
    (dot_S512x128_S3072x128_S512x3072_1_1_0_0_n_n.rhsIdx i q 1).val = (q ⟨0, by decide⟩).val :=
  dot_S512x128_S3072x128_S512x3072_1_1_0_0_n_n.rhsIdx_val_of_single rfl i q

/-- The block product into the zero block, at (r, o): row r of the left operand against row o of the right. -/
theorem down_apply (l : FVec Ideal S512x128 .bf16) (w : FVec Ideal S3072x128 .bf16) (r : Fin 512) (o : Fin 3072) :
    matmul dot_S512x128_S3072x128_S512x3072_1_1_0_0_n_n none l w (constant (F := Ideal) S512x3072 .f32 0x00000000#32) (ix2 r o)
      = ∑ jj : Fin 128, l (ix2 r jj) * w (ix2 o jj) := by
  refine (Ideal.matmul_constant_zero_apply dot_S512x128_S3072x128_S512x3072_1_1_0_0_n_n none l w (ix2 r o)).trans ?_
  rw [← Equiv.sum_comp (contrEquiv1 dot_S512x128_S3072x128_S512x3072_1_1_0_0_n_n 128 rfl rfl).symm]
  refine Finset.sum_congr rfl fun k _ => ?_
  have hk := contrEquiv1_symm_val dot_S512x128_S3072x128_S512x3072_1_1_0_0_n_n 128 rfl rfl k
  have el : dot_S512x128_S3072x128_S512x3072_1_1_0_0_n_n.lhsIdx (ix2 r o) ((contrEquiv1 dot_S512x128_S3072x128_S512x3072_1_1_0_0_n_n 128 rfl rfl).symm k) = ix2 r k := funext fun a => Fin.ext (by
    match a with
    | ⟨0, _⟩ => exact lhs_down_0 _ _
    | ⟨1, _⟩ => exact (lhs_down_1 _ _).trans hk)
  have er : dot_S512x128_S3072x128_S512x3072_1_1_0_0_n_n.rhsIdx (ix2 r o) ((contrEquiv1 dot_S512x128_S3072x128_S512x3072_1_1_0_0_n_n 128 rfl rfl).symm k) = ix2 o k := funext fun a => Fin.ext (by
    match a with
    | ⟨0, _⟩ => exact rhs_down_0 _ _
    | ⟨1, _⟩ => exact (rhs_down_1 _ _).trans hk)
  rw [el, er]

/-! ## One dequantised projection of the block -/

/-- The x block against a weight chunk read as the integers it spells, each column scaled: what the body computes
    for the gate and for the up projection. -/
def projBlk (v3 : FVec Ideal S512x3072 .f32) (w : IVec S128x3072 32) (s : FVec Ideal S128 .f32) : FVec Ideal S512x128 .f32 :=
  mulf
    (matmul dot_S512x3072_S128x3072_S512x128_1_1_0_0_n_n none
      (truncf .bf16 (shapeCast S512x3072 v3 shapeCasts_S512x3072_S512x3072) bitsLt_bf16_f32)
      (truncf .bf16 (sitofp .f32 w) bitsLt_bf16_f32)
      (constant (F := Ideal) S512x128 .f32 0x00000000#32))
    (broadcastTo S512x128 (shapeCast S1x128 s shapeCasts_S128_S1x128) broadcasts_S1x128_S512x128)

theorem projBlk_apply (v3 : FVec Ideal S512x3072 .f32) (w : IVec S128x3072 32) (s : FVec Ideal S128 .f32)
    (r : Fin 512) (jj : Fin 128) :
    projBlk v3 w s (ix2 r jj) = (∑ h : Fin 3072, v3 (ix2 r h) * Cert.Spec.wt (w (ix2 jj h))) * s (ix1 jj) := by
  unfold projBlk
  rw [mulf_apply, proj_apply, rowOver128, shapeCast_self]
  rfl

/-! ## The three stored values -/

theorem pay2_apply (j : S512x3072.Idx) : k0_pay2 (F := Ideal) j = 0 := by
  unfold k0_pay2
  refine (congrFun (shapeCast_self _ shapeCasts_S512x3072_S512x3072) j).trans ?_
  exact Ideal.ofBits_zero_f32

theorem pay1_apply (v38 : Vec Ideal S512x3072 .f32) (v39 : Vec Ideal S3072 .f32) (r : Fin 512) (o : Fin 3072) :
    k0_pay1 (F := Ideal) v38 v39 (ix2 r o) = v38 (ix2 r o) * v39 (ix1 o) := by
  unfold k0_pay1
  exact congrArg (fun t : EReal => v38 (ix2 r o) * t) (rowOver3072 v39 r o)

theorem pay3_apply (v3 : Vec Ideal S512x3072 .f32) (v6 v9 : Vec Ideal S128x3072 .i32) (v13 v18 : Vec Ideal S128 .f32)
    (v26 : Vec Ideal S3072x128 .i32) (v30 : Vec Ideal S512x3072 .f32) (r : Fin 512) (o : Fin 3072) :
    k0_pay3 (F := Ideal) v3 v6 v9 v13 v18 v26 v30 (ix2 r o)
      = v30 (ix2 r o) + ∑ jj : Fin 128, hidBlk v3 v6 v9 v13 v18 r jj * Cert.Spec.wt (v26 (ix2 o jj)) := by
  unfold k0_pay3
  refine (congrFun (shapeCast_self _ shapeCasts_S512x3072_S512x3072) (ix2 r o)).trans ?_
  refine congrArg (fun t : EReal => v30 (ix2 r o) + t) ?_
  refine (down_apply _ _ r o).trans ?_
  refine Finset.sum_congr rfl fun jj _ => ?_
  refine congrArg (fun t : EReal => t * Cert.Spec.wt (v26 (ix2 o jj))) ?_
  show (projBlk v3 v6 v13 (ix2 r jj) * Ideal.logistic (projBlk v3 v6 v13 (ix2 r jj))) * projBlk v3 v9 v18 (ix2 r jj)
      = hidBlk v3 v6 v9 v13 v18 r jj
  rw [projBlk_apply, projBlk_apply]
  rfl

end Cert.KernelIdeal.Pay

end
-- ==== Proof.AccI.lean ====
/-
  The accumulator in closed form.

  After the body at grid point t = 64·i + k the accumulator holds, at (r, o), the partial down projection
  Σ_{k' ≤ k} Σ_{jj < 128} hid(128·k' + jj) · w2[o, 128·k' + jj] of row 512·i + r of the flattened x: the first chunk
  adds its 128 terms to the zero block, each later chunk to what the chunk before left. Only the commutative
  monoid structure of the extended reals' addition is used (0 + a = a and the shape of a sum over a range).
-/
import proofs.«124556_j48241072668862_1_alg».proof.Proof.BlocksI
import proofs.«124556_j48241072668862_1_alg».proof.Proof.PayIdeal
import proofs.«124556_j48241072668862_1_alg».proof.Proof.Spec
import Mathlib.Algebra.BigOperators.Fin

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

/-! ## Pure: one chunk's gated unit is the specification's -/

/-- If the five blocks are the rows the specification reads, the chunk's gated unit jj is the hidden unit j. -/
theorem hidBlk_eq (v3 : Vec Ideal S512x3072 .f32) (v6 v9 : Vec Ideal S128x3072 .i32) (v13 v18 : Vec Ideal S128 .f32)
    (x : Cert.Spec.SX.Idx → EReal) (w1 : Cert.Spec.SW1.Idx → BitVec 32) (s1 : Cert.Spec.SS1.Idx → EReal)
    (r : Fin 512) (jj : Fin 128) (b : Fin 4) (s : Fin 2048) (j : Fin 8192)
    (hx : ∀ h : Fin 3072, v3 (ix2 r h) = x (ix3 b s h))
    (hg : ∀ h : Fin 3072, v6 (ix2 jj h) = w1 (ix2 (⟨j.val, by omega⟩ : Fin 16384) h))
    (hu : ∀ h : Fin 3072, v9 (ix2 jj h) = w1 (ix2 (⟨j.val + 8192, by omega⟩ : Fin 16384) h))
    (hgs : v13 (ix1 jj) = s1 (ix1 (⟨j.val, by omega⟩ : Fin 16384)))
    (hus : v18 (ix1 jj) = s1 (ix1 (⟨j.val + 8192, by omega⟩ : Fin 16384))) :
    Cert.KernelIdeal.Pay.hidBlk v3 v6 v9 v13 v18 r jj = Cert.Spec.hid x w1 s1 b s j := by
  unfold Cert.KernelIdeal.Pay.hidBlk Cert.Spec.hid Cert.Spec.proj
  simp only [hx, hg, hu, hgs, hus]

/-- Term n of the down contraction at row (b, s), column o; zero past the 8192 hidden units. -/
def dterm (x : Cert.Spec.SX.Idx → EReal) (w1 : Cert.Spec.SW1.Idx → BitVec 32) (s1 : Cert.Spec.SS1.Idx → EReal)
    (w2 : Cert.Spec.SW2.Idx → BitVec 32) (b : Fin 4) (s : Fin 2048) (o : Fin 3072) (n : ℕ) : EReal :=
  if h : n < 8192 then Cert.Spec.hid x w1 s1 b s ⟨n, h⟩ * Cert.Spec.wt (w2 (ix2 o ⟨n, h⟩)) else 0

theorem dterm_lt (x : Cert.Spec.SX.Idx → EReal) (w1 : Cert.Spec.SW1.Idx → BitVec 32) (s1 : Cert.Spec.SS1.Idx → EReal)
    (w2 : Cert.Spec.SW2.Idx → BitVec 32) (b : Fin 4) (s : Fin 2048) (o : Fin 3072) (j : Fin 8192) :
    dterm x w1 s1 w2 b s o j.val = Cert.Spec.hid x w1 s1 b s j * Cert.Spec.wt (w2 (ix2 o j)) := by
  unfold dterm
  rw [dif_pos j.isLt]

variable (m : (ℓ : Loc nD τ sig) → Buf (Elt Ideal) ℓ)

/-! ## The five argument arrays on a core -/

abbrev ax (c : Dev nD) : Cert.Spec.SX.Idx → EReal := m ((c : Thread nD τ).loc main_arg0)
abbrev aw1 (c : Dev nD) : Cert.Spec.SW1.Idx → BitVec 32 := m ((c : Thread nD τ).loc main_arg1)
abbrev as1 (c : Dev nD) : Cert.Spec.SS1.Idx → EReal := m ((c : Thread nD τ).loc main_arg2)
abbrev aw2 (c : Dev nD) : Cert.Spec.SW2.Idx → BitVec 32 := m ((c : Thread nD τ).loc main_arg3)
abbrev as2 (c : Dev nD) : Cert.Spec.SS2.Idx → EReal := m ((c : Thread nD τ).loc main_arg4)

theorem N_eq : cfg0.N = 1024 := by decide

/-! ## One chunk's contribution -/

/-- The 128 terms the body at point t adds at (r, o) are terms 128·(t % 64) … of the down contraction of the row
    (b, s) that row 512·(t / 64) + r of the flattened x is. -/
theorem chunk_sum (c : Dev nD) (t : Fin cfg0.N) (r : Fin 512) (o : Fin 3072) (b : Fin 4) (s : Fin 2048)
    (hρ : 512 * (t.val / 64) + r.val = 2048 * b.val + s.val) :
    ∑ jj : Fin 128, Cert.KernelIdeal.Pay.hidBlk (xblk m c t) (gwblk m c t) (uwblk m c t) (gsblk m c t) (usblk m c t) r jj
        * Cert.Spec.wt (dwblk m c t (ix2 o jj))
      = ∑ jj : Fin 128, dterm (ax m c) (aw1 m c) (as1 m c) (aw2 m c) b s o (128 * (t.val % 64) + jj.val) := by
  refine Finset.sum_congr rfl fun jj _ => ?_
  have hlt : 128 * (t.val % 64) + jj.val < 8192 := by have := jj.isLt; omega
  refine Eq.trans ?_ (dterm_lt (ax m c) (aw1 m c) (as1 m c) (aw2 m c) b s o ⟨128 * (t.val % 64) + jj.val, hlt⟩).symm
  rw [hidBlk_eq (xblk m c t) (gwblk m c t) (uwblk m c t) (gsblk m c t) (usblk m c t) (ax m c) (aw1 m c) (as1 m c)
      r jj b s ⟨128 * (t.val % 64) + jj.val, hlt⟩
      (fun h => xblk_apply m c t r h b s hρ)
      (fun h => gwblk_apply m c t jj h _ rfl)
      (fun h => uwblk_apply m c t jj h _ rfl)
      (gsblk_apply m c t jj _ rfl)
      (usblk_apply m c t jj _ rfl),
    dwblk_apply m c t o jj ⟨128 * (t.val % 64) + jj.val, hlt⟩ rfl]

/-! ## The accumulator after one more point -/

theorem accAt_congr (c : Dev nD) (n n' : ℕ) (hn : n < cfg0.N) (hn' : n' < cfg0.N) (e : n = n') :
    accAt m c n hn = accAt m c n' hn' := by
  subst e; rfl

/-- At the first chunk of a row tile the accumulator is the chunk's contribution (added to the zero block). -/
theorem acc_first_apply (c : Dev nD) (t : Fin cfg0.N) (h0 : t.val % 64 = 0) (r : Fin 512) (o : Fin 3072) :
    accAt m c t.val t.isLt (ix2 r o)
      = ∑ jj : Fin 128, Cert.KernelIdeal.Pay.hidBlk (xblk m c t) (gwblk m c t) (uwblk m c t) (gsblk m c t) (usblk m c t) r jj
          * Cert.Spec.wt (dwblk m c t (ix2 o jj)) := by
  refine (congrFun (accAt_first m c t h0) (ix2 r o)).trans ?_
  refine (Cert.KernelIdeal.Pay.pay3_apply (xblk m c t) (gwblk m c t) (uwblk m c t) (gsblk m c t) (usblk m c t) (dwblk m c t)
    (k0_pay2 (F := Ideal)) r o).trans ?_
  rw [Cert.KernelIdeal.Pay.pay2_apply, zero_add]

/-- At a later chunk it is what the point before left plus the chunk's contribution. -/
theorem acc_later_apply (c : Dev nD) (t : Fin cfg0.N) (h0 : ¬t.val % 64 = 0) (r : Fin 512) (o : Fin 3072) :
    accAt m c t.val t.isLt (ix2 r o)
      = accAt m c (t.val - 1) (Nat.lt_of_le_of_lt (Nat.sub_le _ _) t.isLt) (ix2 r o)
        + ∑ jj : Fin 128, Cert.KernelIdeal.Pay.hidBlk (xblk m c t) (gwblk m c t) (uwblk m c t) (gsblk m c t) (usblk m c t) r jj
          * Cert.Spec.wt (dwblk m c t (ix2 o jj)) := by
  refine (congrFun (accAt_later m c t h0) (ix2 r o)).trans ?_
  exact Cert.KernelIdeal.Pay.pay3_apply (xblk m c t) (gwblk m c t) (uwblk m c t) (gsblk m c t) (usblk m c t) (dwblk m c t)
    (accAt m c (t.val - 1) (Nat.lt_of_le_of_lt (Nat.sub_le _ _) t.isLt)) r o

/-! ## The closed form -/

/-- After point 64·i + k the accumulator at (r, o) is the first 128·(k + 1) terms of the down contraction of the
    row (b, s) that row 512·i + r of the flattened x is. -/
theorem acc_closed (c : Dev nD) (i : ℕ) (hi : i < 16) (r : Fin 512) (o : Fin 3072) (b : Fin 4) (s : Fin 2048)
    (hρ : 512 * i + r.val = 2048 * b.val + s.val) :
    ∀ (k : ℕ) (hk : k < 64), accAt m c (64 * i + k) (by rw [N_eq]; omega) (ix2 r o)
      = ∑ k' ∈ Finset.range (k + 1), ∑ jj : Fin 128,
          dterm (ax m c) (aw1 m c) (as1 m c) (aw2 m c) b s o (128 * k' + jj.val) := by
  intro k
  induction k with
  | zero =>
    intro hk
    have hN : 64 * i + 0 < cfg0.N := by rw [N_eq]; omega
    have hd : (64 * i + 0) / 64 = i := by omega
    have hm : (64 * i + 0) % 64 = 0 := by omega
    rw [Finset.sum_range_one]
    refine (acc_first_apply m c ⟨64 * i + 0, hN⟩ hm r o).trans ?_
    refine (chunk_sum m c ⟨64 * i + 0, hN⟩ r o b s (by rw [hd]; exact hρ)).trans ?_
    rw [hm]
  | succ k ih =>
    intro hk
    have hN : 64 * i + (k + 1) < cfg0.N := by rw [N_eq]; omega
    have hd : (64 * i + (k + 1)) / 64 = i := by omega
    have hm : (64 * i + (k + 1)) % 64 = k + 1 := by omega
    rw [Finset.sum_range_succ]
    refine (acc_later_apply m c ⟨64 * i + (k + 1), hN⟩ (by rw [hm]; omega) r o).trans ?_
    rw [accAt_congr m c (64 * i + (k + 1) - 1) (64 * i + k) _ (by rw [N_eq]; omega) (by omega), ih (by omega)]
    refine congrArg (fun z : EReal => _ + z) ?_
    refine (chunk_sum m c ⟨64 * i + (k + 1), hN⟩ r o b s (by rw [hd]; exact hρ)).trans ?_
    rw [hm]

end Cert.KernelIdeal.Hand

end
-- ==== Proof.Regroup.lean ====
/-
  Regrouping a sum over 8192 = 64 · 128 terms into 64 consecutive chunks of 128.

  Only commutativity and associativity of the addition are used: the statement holds in every commutative
  additive monoid, in particular over the extended reals with no finiteness assumption.
-/
import Mathlib.Algebra.BigOperators.Fin
import Mathlib.Logic.Equiv.Fin.Basic

open scoped BigOperators

namespace Cert.Regroup

/-- Σ_{j < 8192} f j = Σ_{k < 64} Σ_{jj < 128} f (128·k + jj). -/
theorem sum_chunks {M : Type*} [AddCommMonoid M] (f : ℕ → M) :
    ∑ j : Fin 8192, f j.val = ∑ k ∈ Finset.range 64, ∑ jj : Fin 128, f (128 * k + jj.val) := by
  rw [Finset.sum_range]
  rw [← Equiv.sum_comp (finProdFinEquiv : Fin 64 × Fin 128 ≃ Fin 8192) (fun j : Fin 8192 => f j.val),
    Fintype.sum_prod_type]
  refine Finset.sum_congr rfl fun k _ => Finset.sum_congr rfl fun jj _ => ?_
  show f (jj.val + 128 * k.val) = f (128 * k.val + jj.val)
  rw [Nat.add_comm]

end Cert.Regroup
-- ==== Proof.ValueI.lean ====
/-
  What the kernel leaves in its result array.

  The output block of row tile i is written back once, after the last chunk (point 64·i + 63): it holds the
  accumulator, by then the whole down contraction Σ_{j < 8192} hid j · w2[o, j] of each of the tile's rows, times
  the column scale s2[o]: the specification G at the row (b, s) = (ρ / 2048, ρ % 2048) that row ρ of the flat
  result is. The sixteen written blocks tile the array, and the reshape after the region reads row 2048·b + s.
-/
import proofs.«124556_j48241072668862_1_alg».proof.Proof.AccI
import proofs.«124556_j48241072668862_1_alg».proof.Proof.Regroup
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-! ## The whole contraction -/

/-- After the last chunk of row tile i the accumulator at (r, o) is the whole down contraction of its row. -/
theorem acc_last (c : Dev nD) (i : ℕ) (hi : i < 16) (r : Fin 512) (o : Fin 3072) (b : Fin 4) (s : Fin 2048)
    (hρ : 512 * i + r.val = 2048 * b.val + s.val) :
    accAt m c (64 * i + 63) (by rw [N_eq]; omega) (ix2 r o)
      = ∑ j : Fin 8192, Cert.Spec.hid (ax m c) (aw1 m c) (as1 m c) b s j * Cert.Spec.wt (aw2 m c (ix2 o j)) := by
  rw [acc_closed m c i hi r o b s hρ 63 (by omega),
    ← Cert.Regroup.sum_chunks (dterm (ax m c) (aw1 m c) (as1 m c) (aw2 m c) b s o)]
  exact Finset.sum_congr rfl fun j _ => dterm_lt (ax m c) (aw1 m c) (as1 m c) (aw2 m c) b s o j

/-! ## The flat result -/

/-- Row ρ of the flat result is row (ρ / 2048, ρ % 2048) of the specification. -/
def Gflat (c : Dev nD) : S8192x3072.Idx → EReal := fun j =>
  Cert.Spec.G (ax m c) (aw1 m c) (as1 m c) (aw2 m c) (as2 m c)
    (ix3 (⟨(j 0).val / 2048, by have := idx2_lt0 j; omega⟩ : Fin 4) (⟨(j 0).val % 2048, Nat.mod_lt _ (by decide)⟩ : Fin 2048) (j 1))

theorem Gflat_apply (c : Dev nD) (ρ : Fin 8192) (o : Fin 3072) (b : Fin 4) (s : Fin 2048)
    (hρ : ρ.val = 2048 * b.val + s.val) :
    Gflat m c (ix2 ρ o)
      = (∑ j : Fin 8192, Cert.Spec.hid (ax m c) (aw1 m c) (as1 m c) b s j * Cert.Spec.wt (aw2 m c (ix2 o j)))
          * as2 m c (ix1 o) := by
  have hb : b = (⟨ρ.val / 2048, Nat.div_lt_of_lt_mul ρ.isLt⟩ : Fin 4) :=
    Fin.ext (by have := s.isLt; show b.val = ρ.val / 2048; omega)
  have hs : s = (⟨ρ.val % 2048, Nat.mod_lt _ (by decide)⟩ : Fin 2048) :=
    Fin.ext (by have := s.isLt; show s.val = ρ.val % 2048; omega)
  rw [hb, hs]
  rfl

/-! ## What a flushing point writes back -/

/-- The block written back at the last chunk of a row tile is that tile's block of the flat result. -/
theorem flushed7_eq (c : Dev nD) (t : Fin cfg0.N) (hf : (cfg0.win 7).flush t = true) :
    (dats m 0 c).flushed 7 t = ((cfg0.win 7).blk t).view.read (Elt Ideal) (Gflat m c) := by
  have h63 : t.val % 64 = 63 := (flush0_7 t).mp hf
  have hN : t.val < 1024 := lt_of_lt_of_eq t.isLt N_eq
  obtain ⟨e0, e1⟩ := bidx7 t
  funext y
  have hy0 : (y 0).val < 512 := (y 0).isLt
  have hy1 : (y 1).val < 3072 := (y 1).isLt
  have hρlt : 512 * (t.val / 64) + (y 0).val < 8192 := by omega
  have hx : (cfg0.win 7).xinj (grid0.coords t) y = ix2 (⟨(y 0).val, hy0⟩ : Fin 512) (⟨(y 1).val, hy1⟩ : Fin 3072) := by
    funext a
    match a with
    | ⟨0, _⟩ => rfl
    | ⟨1, _⟩ => rfl
  have he : ((cfg0.win 7).blk t).view.emb y
      = ix2 (⟨512 * (t.val / 64) + (y 0).val, hρlt⟩ : Fin 8192) (⟨(y 1).val, hy1⟩ : Fin 3072) := by
    funext a
    apply Fin.ext
    match a with
    | ⟨0, _⟩ => show win0_7.index t 0 * 512 + 1 * (y 0).val = 512 * (t.val / 64) + (y 0).val; rw [e0]; omega
    | ⟨1, _⟩ => show win0_7.index t 1 * 3072 + 1 * (y 1).val = (y 1).val; rw [e1]; omega
  show (dats m 0 c).after 7 t ((cfg0.win 7).xinj (grid0.coords t) y) = _
  rw [after7, View.read_apply, hx, he]
  show k0_pay1 (accAt m c t.val t.isLt) (dsblk m c t) (ix2 (⟨(y 0).val, hy0⟩ : Fin 512) (⟨(y 1).val, hy1⟩ : Fin 3072))
    = Gflat m c (ix2 (⟨512 * (t.val / 64) + (y 0).val, hρlt⟩ : Fin 8192) (⟨(y 1).val, hy1⟩ : Fin 3072))
  have hb4 : (512 * (t.val / 64) + (y 0).val) / 2048 < 4 := by omega
  have hρ : 512 * (t.val / 64) + (y 0).val
      = 2048 * ((⟨(512 * (t.val / 64) + (y 0).val) / 2048, hb4⟩ : Fin 4)).val
        + ((⟨(512 * (t.val / 64) + (y 0).val) % 2048, Nat.mod_lt _ (by decide)⟩ : Fin 2048)).val := by
    show 512 * (t.val / 64) + (y 0).val
      = 2048 * ((512 * (t.val / 64) + (y 0).val) / 2048) + (512 * (t.val / 64) + (y 0).val) % 2048
    omega
  refine (Cert.KernelIdeal.Pay.pay1_apply (accAt m c t.val t.isLt) (dsblk m c t) ⟨(y 0).val, hy0⟩ ⟨(y 1).val, hy1⟩).trans ?_
  rw [dsblk_apply, Gflat_apply m c ⟨512 * (t.val / 64) + (y 0).val, hρlt⟩ ⟨(y 1).val, hy1⟩ _ _ hρ,
    accAt_congr m c t.val (64 * (t.val / 64) + 63) t.isLt (lt_of_lt_of_eq (by omega : 64 * (t.val / 64) + 63 < 1024) N_eq.symm) (by omega),
    acc_last m c (t.val / 64) (by omega) ⟨(y 0).val, hy0⟩ ⟨(y 1).val, hy1⟩ _ _ hρ]

/-! ## The written blocks tile the array -/

/-- An index of the flat result is in point t's block iff each coordinate is in the block's range on its axis. -/
theorem mem_blk7 (t : Fin cfg0.N) (i : S8192x3072.Idx) :
    i ∈ ((cfg0.win 7).blk t).view.set ↔ ∀ a : Fin 2, win0_7.index t a * S512x3072.size a ≤ (i a).val
      ∧ (i a).val < win0_7.index t a * S512x3072.size a + S512x3072.size a := by
  show i ∈ ((View.whole main_v1).slice (win0_7.rect t)).set ↔ _
  rw [View.set_slice_whole, Rect.mem_set_unit]
  exact Iff.rfl

/-- Row ρ of the flat result is written back by the last chunk of row tile ρ / 512. -/
theorem cover7 (i : S8192x3072.Idx) :
    ∃ t : Fin cfg0.N, (cfg0.win 7).flush t = true ∧ i ∈ ((cfg0.win 7).blk t).view.set := by
  have hi0 : (i 0).val < 8192 := idx2_lt0 i
  have hi1 : (i 1).val < 3072 := idx2_lt1 i
  have hN : 64 * ((i 0).val / 512) + 63 < cfg0.N := by rw [N_eq]; omega
  have e0 : win0_7.index ⟨64 * ((i 0).val / 512) + 63, hN⟩ 0 = (64 * ((i 0).val / 512) + 63) / 64 := (bidx7 ⟨_, hN⟩).1
  have e1 : win0_7.index ⟨64 * ((i 0).val / 512) + 63, hN⟩ 1 = 0 := (bidx7 ⟨_, hN⟩).2
  refine ⟨⟨64 * ((i 0).val / 512) + 63, hN⟩, (flush0_7 _).mpr ?_, ?_⟩
  · show (64 * ((i 0).val / 512) + 63) % 64 = 63
    omega
  · rw [mem_blk7]
    intro a
    match a with
    | ⟨0, _⟩ =>
      show win0_7.index ⟨64 * ((i 0).val / 512) + 63, hN⟩ 0 * 512 ≤ (i 0).val
        ∧ (i 0).val < win0_7.index ⟨64 * ((i 0).val / 512) + 63, hN⟩ 0 * 512 + 512
      rw [e0]; omega
    | ⟨1, _⟩ =>
      show win0_7.index ⟨64 * ((i 0).val / 512) + 63, hN⟩ 1 * 3072 ≤ (i 1).val
        ∧ (i 1).val < win0_7.index ⟨64 * ((i 0).val / 512) + 63, hN⟩ 1 * 3072 + 3072
      rw [e1]; omega

/-! ## The result -/

/-- The result array after the region: row ρ, column o holds the specification at (ρ / 2048, ρ % 2048, o). -/
theorem final7 (c : Dev nD) : (dats m 0 c).arrAt 7 cfg0.N = Gflat m c :=
  (dats m 0 c).arrAt_eq_of_cover 7 (Gflat m c) (fun t hf => flushed7_eq m c t hf) cover7

/-- Its reshape to [4, 2048, 3072] is the specification. -/
theorem out_eq_G (c : Dev nD) :
    (shapeCast S4x2048x3072 ((dats m 0 c).arrAt 7 cfg0.N) shapeCasts_S8192x3072_S4x2048x3072 : S4x2048x3072.Idx → EReal)
      = Cert.Spec.G (ax m c) (aw1 m c) (as1 m c) (aw2 m c) (as2 m c) := by
  rw [final7]
  funext i
  obtain ⟨b, s, o, rfl⟩ : ∃ b s o, i = ix3 b s o := ⟨i 0, i 1, i 2, eq_ix3 i⟩
  have hρ : 2048 * b.val + s.val < 8192 := by have := b.isLt; have := s.isLt; omega
  rw [reshape_out (Gflat m c) b s o ⟨2048 * b.val + s.val, hρ⟩ rfl,
    Gflat_apply m c ⟨2048 * b.val + s.val, hρ⟩ o b s rfl]
  rfl

end Cert.KernelIdeal.Hand

end
-- ==== Proof.Claims.lean ====
/-
  The five claims, assembled.

  The word-level kernel and its idealization run to the end from any memory and leave the five arguments as launched
  (the same run, read at either instance). The reference is a host program whose run is its composed term. At the
  ideal instance the kernel's result is the function G of the arguments (accumulated chunk by chunk over the hidden
  axis, then scaled), and so is the reference's (one contraction over the whole hidden axis): the two agree.
-/
import proofs.«124556_j48241072668862_1_alg».proof.Defs
import proofs.«124556_j48241072668862_1_alg».proof.Proof.Gen.Kernel
import proofs.«124556_j48241072668862_1_alg».proof.Proof.Gen.KernelIdeal
import proofs.«124556_j48241072668862_1_alg».proof.Proof.Gen.ReferenceIdeal
import proofs.«124556_j48241072668862_1_alg».proof.Proof.Gen.Pre_finite_inputs
import proofs.«124556_j48241072668862_1_alg».proof.Proof.BodyOblK
import proofs.«124556_j48241072668862_1_alg».proof.Proof.RunK
import proofs.«124556_j48241072668862_1_alg».proof.Proof.BodyOblI
import proofs.«124556_j48241072668862_1_alg».proof.Proof.RunI
import proofs.«124556_j48241072668862_1_alg».proof.Proof.RefSide
import proofs.«124556_j48241072668862_1_alg».proof.Proof.ValueI

noncomputable section

namespace Cert.Proof.Claims

open Idealize.ShloMosaic Idealize.ShloMosaic.TcCoe Idealize.SL.Sem

/-- The word-level kernel runs to the end and leaves its arguments unchanged. -/
theorem frame_k : Cert.frame_Kernel := fun m ρ _ =>
  (θ_run (Cert.Kernel.defs (F := Bits)) _ _).mono (fun _ h c => (h c).2)
    (Cert.Kernel.Hand.run_main (F := Bits) m ρ (Cert.Kernel.Hand.body_obligation m))

/-- So does its idealization. -/
theorem frame_ki : Cert.frame_KernelIdeal := fun m ρ _ =>
  (θ_run (Cert.KernelIdeal.defs (F := Ideal)) _ _).mono (fun _ h c => (h c).2)
    (Cert.KernelIdeal.Hand.run_main (F := Ideal) m ρ (Cert.KernelIdeal.Hand.body_obligation m))

/-- And the reference: its run with the result dropped. -/
theorem frame_ri : Cert.frame_ReferenceIdeal := fun m ρ _ =>
  (θ_run (Cert.ReferenceIdeal.defs (F := Ideal)) _ _).mono (fun _ h c => (h c).2) (Cert.RefSide.run m ρ)

/-- The ideal pass rewrote nothing. -/
theorem preserves : Cert.preserves_Kernel_KernelIdeal := trivial

/-- At the ideal instance both programs end with the function G of the (agreeing) arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run (Cert.KernelIdeal.defs (F := Ideal)) _ _).mono
      (fun _ h c => ⟨(h c).1.trans ((Cert.KernelIdeal.Hand.outArr_eq m c).trans (Cert.KernelIdeal.Hand.out_eq_G m c)), (h c).2⟩)
      (Cert.KernelIdeal.Hand.run_main (F := Ideal) m ρ (Cert.KernelIdeal.Hand.body_obligation m))
  · refine (θ_run (Cert.ReferenceIdeal.defs (F := Ideal)) _ _).mono (fun _ h c => ⟨(h c).1.trans ?_, (h c).2⟩) (Cert.RefSide.run m' ρ')
    rw [(hagree c).1, (hagree c).2.1, (hagree c).2.2.1, (hagree c).2.2.2.1, (hagree c).2.2.2.2]

end Cert.Proof.Claims

end
-- ==== Proof.lean ====
/-
  The fused, quantised gated projection against its plain reference: every claim of the certificate.

  x : [4, 2048, 3072] is read as 8192 rows. For each row tile of 512 rows and each chunk of 128 hidden units the
  kernel forms gate = (x · gwᵀ) · gs and up = (x · uwᵀ) · us from two row ranges of one integer weight array and of
  one scale vector, the gated unit (gate · logistic gate) · up, and adds its product with a column block of the second
  weight array into an accumulator that is zeroed at the first chunk; at the last chunk the accumulator times the
  output scales is the tile's result. Over the extended reals the accumulator after the last chunk is the sum over
  all 8192 hidden units (a regrouping of one finite sum, no finiteness needed), logistic g is 1 / (1 + exp(−g)) as the
  reference spells it, and the integer weights are read as the same integers on both sides: the two results are one
  function of the arguments (Proof/Spec.lean). The frames are the run of the one region between two reshapes, read
  at the word-level and at the ideal instance; the ideal pass rewrote nothing.
-/
import proofs.«124556_j48241072668862_1_alg».proof.Defs
import proofs.«124556_j48241072668862_1_alg».proof.Proof.Gen.Kernel
import proofs.«124556_j48241072668862_1_alg».proof.Proof.Gen.Kernel.Skeleton
import proofs.«124556_j48241072668862_1_alg».proof.Proof.Gen.Kernel.Launch
import proofs.«124556_j48241072668862_1_alg».proof.Proof.Gen.Kernel.Points
import proofs.«124556_j48241072668862_1_alg».proof.Proof.Gen.KernelIdeal
import proofs.«124556_j48241072668862_1_alg».proof.Proof.Gen.KernelIdeal.Skeleton
import proofs.«124556_j48241072668862_1_alg».proof.Proof.Gen.KernelIdeal.Launch
import proofs.«124556_j48241072668862_1_alg».proof.Proof.Gen.KernelIdeal.Points
import proofs.«124556_j48241072668862_1_alg».proof.Proof.Gen.ReferenceIdeal
import proofs.«124556_j48241072668862_1_alg».proof.Proof.Gen.Pre_finite_inputs
import proofs.«124556_j48241072668862_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
